-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S100000 : Shape := ⟨1, ![100000]⟩
abbrev S256x128 : Shape := ⟨2, ![256, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000 : S_.BroadcastsInDim S100000 (![] : Fin 0 → Fin S100000.rank)
  reducesTo_S100000_S_d0 : S100000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2 .f32) (main_arg9 : FVec F S128x2 .f32) (main_arg10 : FVec F S2 .f32) (main_v33 : IVec S_ 1) : IVec S_ 1 :=
  let main_v34 : FVec F S2 .f32 := Host.absf main_arg8
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_v39 : FVec F S128x2 .f32 := Host.absf main_arg9
  let main_cst_14 : FVec F S_ .f32 := constant S_ .f32 0x7F800000#32
  let main_v40 : FVec F S128x2 .f32 := broadcastInDim S128x2 ![] bcast_S_S128x2 main_cst_14
  let main_v41 : IVec S128x2 1 := cmpf .olt main_v39 main_v40
  let main_c_15 : IVec S_ 1 := constantI S_ 1 1#1
  let main_v42 : IVec S_ 1 := (fun x v => Host.reduce IntOp.andi x v reducesTo_S128x2_S_d0_1 h_S_) main_v41 main_c_15
  let main_v43 : IVec S_ 1 := andi main_v38 main_v42
  let main_v44 : FVec F S2 .f32 := Host.absf main_arg10
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x2 .f32) (main_arg8 : FVec F S2 .f32) (main_arg9 : FVec F S128x2 .f32) (main_arg10 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x2 .f32 := Host.absf main_arg7
  let main_cst_10 : FVec F S_ .f32 := constant S_ .f32 0x7F800000#32
  let main_v30 : FVec F S128x2 .f32 := broadcastInDim S128x2 ![] bcast_S_S128x2 main_cst_10
  let main_v31 : IVec S128x2 1 := cmpf .olt main_v29 main_v30
  let main_c_11 : IVec S_ 1 := constantI S_ 1 1#1
  let main_v32 : IVec S_ 1 := (fun x v => Host.reduce IntOp.andi x v reducesTo_S128x2_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x256 .f32) (main_arg1 : IVec S2x1600000 32) (main_arg2 : FVec F S100000 .f32) (main_arg3 : FVec F S256x128 .f32) (main_arg4 : FVec F S128 .f32) (main_arg5 : FVec F S128x128 .f32) (main_arg6 : FVec F S128 .f32) (main_arg7 : FVec F S128x2 .f32) (main_arg8 : FVec F S2 .f32) (main_arg9 : FVec F S128x2 .f32) (main_arg10 : FVec F S2 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000 .f32 := Host.absf main_arg2
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x256 : Shape := ⟨2, ![100000, 256]⟩
abbrev S2x1600000 : Shape := ⟨2, ![2, 1600000]⟩
abbrev S100000 : Shape := ⟨1, ![100000]⟩
abbrev S256x128 : Shape := ⟨2, ![256, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S1x2 : Shape := ⟨2, ![1, 2]⟩
abbrev S100000x2 : Shape := ⟨2, ![100000, 2]⟩
abbrev S5000x2 : Shape := ⟨2, ![5000, 2]⟩
abbrev S100000x1 : Shape := ⟨2, ![100000, 1]⟩
abbrev S5000x1 : Shape := ⟨2, ![5000, 1]⟩

abbrev nBuf : Space → Nat
  | .hbm => 93
  | .vmem => 32
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S100000, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S128x2, .f32⟩
  | .hbm, ⟨10, _⟩ => ⟨S2, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S1x2, .f32⟩
  | .hbm, ⟨70, _⟩ => ⟨S100000x128, .f32⟩
  | .hbm, ⟨71, _⟩ => ⟨S100000x2, .f32⟩
  | .hbm, ⟨72, _⟩ => ⟨S100000x128, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x1, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S100000x1, .f32⟩
  | .hbm, ⟨90, _⟩ => ⟨S1x128, .f32⟩
  | .hbm, ⟨91, _⟩ => ⟨S1x2, .f32⟩
  | .hbm, ⟨92, _⟩ => ⟨S100000x2, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x2, .f32⟩
  | .local _ .vmem, ⟨9, _⟩ => ⟨S1x2, .f32⟩
  | .local _ .vmem, ⟨10, _⟩ => ⟨S5000x128, .f32⟩
  | .local _ .vmem, ⟨11, _⟩ => ⟨S5000x128, .f32⟩
  | .local _ .vmem, ⟨12, _⟩ => ⟨S5000x2, .f32⟩
  | .local _ .vmem, ⟨13, _⟩ => ⟨S5000x2, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S128x2, .f32⟩
  | .local _ .vmem, ⟨27, _⟩ => ⟨S1x2, .f32⟩
  | .local _ .vmem, ⟨28, _⟩ => ⟨S5000x2, .f32⟩
  | .local _ .vmem, ⟨29, _⟩ => ⟨S5000x2, .f32⟩
  | .local _ .vmem, ⟨30, _⟩ => ⟨S5000x2, .f32⟩
  | .local _ .vmem, ⟨31, _⟩ => ⟨S5000x2, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46_0 : Ref sig .tc := ⟨.hbm, 70, rfl⟩
abbrev main_v46_1 : Ref sig .tc := ⟨.hbm, 71, rfl⟩
abbrev main_v47 : Ref sig .tc := ⟨.hbm, 72, rfl⟩
abbrev main_c_9 : Ref sig .tc := ⟨.hbm, 73, rfl⟩
abbrev main_v48 : Ref sig .tc := ⟨.hbm, 74, rfl⟩
abbrev main_v49 : Ref sig .tc := ⟨.hbm, 75, rfl⟩
abbrev main_c_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc3_stg7_0 : Ref sig .tc := ⟨.vmem, 30, rfl⟩
abbrev cc3_stg7_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem5_0 : DmaSem sig := 27
abbrev cc3_sem6_0 : DmaSem sig := 28
abbrev cc3_sem6_1 : DmaSem sig := 29
abbrev cc3_sem7_0 : DmaSem sig := 30
abbrev cc3_sem7_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x2 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S5000x2 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2_S1x2 : S2.ShapeCasts S1x2
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  inb_S128x128_S128x128_0_0 : ∀ a, (![0, 0] : Fin 2 → Nat) a + S128x128.size a ≤ S128x128.size a
  h_S128x128 : 0 < S128x128.numel
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S5000x2_S5000x2 : S5000x2.ShapeCasts S5000x2
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x2_S5000x2_1_0_0_1_n_n_wf : DotDims.WF S5000x128 S128x2 S5000x2 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x2.size a ≤ S128x2.size a
  hwx1_2 : ∀ i : grid1.Coords, EltTy.bits .f32 = 32 ∨ (Rect.block (s := S128x2) S128x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2.size a ≤ S1x2.size a
  hwx1_3 : ∀ i : grid1.Coords, EltTy.bits .f32 = 32 ∨ (Rect.block (s := S1x2) S1x2.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x2.size a ≤ S100000x2.size a
  hwx1_5 : ∀ i : grid1.Coords, EltTy.bits .f32 = 32 ∨ (Rect.block (s := S100000x2) S5000x2.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S100000x1.size a
  hwx3_3 : ∀ i : grid3.Coords, EltTy.bits .f32 = 32 ∨ (Rect.block (s := S100000x1) S5000x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x2.size a ≤ S128x2.size a
  hwx3_4 : ∀ i : grid3.Coords, EltTy.bits .f32 = 32 ∨ (Rect.block (s := S128x2) S128x2.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x2.size a ≤ S1x2.size a
  hwx3_5 : ∀ i : grid3.Coords, EltTy.bits .f32 = 32 ∨ (Rect.block (s := S1x2) S1x2.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x2.size a ≤ S100000x2.size a
  hwx3_6 : ∀ i : grid3.Coords, EltTy.bits .f32 = 32 ∨ (Rect.block (s := S100000x2) S5000x2.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x2.size a ≤ S100000x2.size a
  hwx3_7 : ∀ i : grid3.Coords, EltTy.bits .f32 = 32 ∨ (Rect.block (s := S100000x2) S5000x2.size (cc3_transform_7 i) (hinb3_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v46_1) S5000x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v46_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46_0) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v61) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S128x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S1x2.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v46_1) S5000x2.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v64) S5000x2.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S100000 : Shape := ⟨1, ![100000]⟩
abbrev S256x128 : Shape := ⟨2, ![256, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S100000x128 : Shape := ⟨2, ![100000, 128]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x2 : Shape := ⟨2, ![100000, 2]⟩
abbrev S1x2 : Shape := ⟨2, ![1, 2]⟩
abbrev S100000x1 : Shape := ⟨2, ![100000, 1]⟩

abbrev nBuf : Space → Nat
  | .hbm => 157
  | .vmem => 0
  | .smem => 0
  | _ => 0

abbrev hbmTy0_0 (i : Nat) : BufTy := match i % 128 with
  | 0 => ⟨S100000x256, .f32⟩
  | 1 => ⟨S2x1600000, .i32⟩
  | 2 => ⟨S100000, .f32⟩
  | 3 => ⟨S256x128, .f32⟩
  | 4 => ⟨S128, .f32⟩
  | 5 => ⟨S128x128, .f32⟩
  | 6 => ⟨S128, .f32⟩
  | 7 => ⟨S128x2, .f32⟩
  | 8 => ⟨S2, .f32⟩
  | 9 => ⟨S128x2, .f32⟩
  | 10 => ⟨S2, .f32⟩
  | 11 => ⟨S1x1600000, .i32⟩
  | 12 => ⟨S1600000, .i32⟩
  | 13 => ⟨S1x1600000, .i32⟩
  | 14 => ⟨S1600000, .i32⟩
  | 15 => ⟨S100000x128, .f32⟩
  | 16 => ⟨S100000, .i32⟩
  | 17 => ⟨S1700000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x2, .f32⟩
  | 75 => ⟨S1x2, .f32⟩
  | 76 => ⟨S100000x2, .f32⟩
  | 77 => ⟨S100000x2, .f32⟩
  | 78 => ⟨S100000x1, .f32⟩
  | 79 => ⟨S100000x128, .f32⟩
  | 80 => ⟨S100000, .i32⟩
  | 81 => ⟨S1700000, .i32⟩
  | 82 => ⟨S1700000, .i32⟩
  | 83 => ⟨S_, .f32⟩
  | 84 => ⟨S1700000, .f32⟩
  | 85 => ⟨S_, .f32⟩
  | 86 => ⟨S100000, .f32⟩
  | 87 => ⟨S1700000x1, .i32⟩
  | 88 => ⟨S100000, .f32⟩
  | 89 => ⟨S_, .f32⟩
  | 90 => ⟨S100000, .f32⟩
  | 91 => ⟨S100000, .i1⟩
  | 92 => ⟨S100000, .f32⟩
  | 93 => ⟨S_, .f32⟩
  | 94 => ⟨S_, .f32⟩
  | 95 => ⟨S100000, .f32⟩
  | 96 => ⟨S100000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000, .f32⟩
  | 115 => ⟨S1700000, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000x128, .f32⟩
  | 125 => ⟨S1700000x1, .f32⟩
  | 126 => ⟨S1700000x128, .f32⟩
  | 127 => ⟨S1700000x128, .f32⟩
  | _ => ⟨S100000x256, .f32⟩

abbrev hbmTy0_1 (i : Nat) : BufTy := match i % 128 with
  | 0 => ⟨S_, .f32⟩
  | 1 => ⟨S100000x128, .f32⟩
  | 2 => ⟨S1700000x1, .i32⟩
  | 3 => ⟨S100000x128, .f32⟩
  | 4 => ⟨S1x128, .f32⟩
  | 5 => ⟨S100000x128, .f32⟩
  | 6 => ⟨S100000x128, .f32⟩
  | 7 => ⟨S_, .f32⟩
  | 8 => ⟨S100000x128, .f32⟩
  | 9 => ⟨S100000x128, .f32⟩
  | 10 => ⟨S100000x128, .f32⟩
  | 11 => ⟨S100000x128, .f32⟩
  | 12 => ⟨S_, .f32⟩
  | 13 => ⟨S100000x1, .f32⟩
  | 14 => ⟨S100000x1, .f32⟩
  | 15 => ⟨S100000x128, .f32⟩
  | 16 => ⟨S100000x128, .f32⟩
  | 17 => ⟨S100000x128, .f32⟩
  | 18 => ⟨S100000x2, .f32⟩
  | 19 => ⟨S1x2, .f32⟩
  | 20 => ⟨S100000x2, .f32⟩
  | 21 => ⟨S100000x2, .f32⟩
  | 22 => ⟨S_, .f32⟩
  | 23 => ⟨S100000x2, .f32⟩
  | 24 => ⟨S100000x2, .f32⟩
  | 25 => ⟨S_, .f32⟩
  | 26 => ⟨S100000x2, .f32⟩
  | 27 => ⟨S100000x2, .f32⟩
  | 28 => ⟨S100000x2, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_9 : Ref sig .tc := ⟨.hbm, 83, rfl⟩
abbrev main_v57 : Ref sig .tc := ⟨.hbm, 84, rfl⟩
abbrev main_cst_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_12 : Ref sig .tc := ⟨.hbm, 93, rfl⟩
abbrev main_call2_v0 : Ref sig .tc := ⟨.hbm, 94, rfl⟩
abbrev main_call2_v1 : Ref sig .tc := ⟨.hbm, 95, rfl⟩
abbrev main_v64 : Ref sig .tc := ⟨.hbm, 96, rfl⟩
abbrev main_c_13 : Ref sig .tc := ⟨.hbm, 97, rfl⟩
abbrev main_v65 : Ref sig .tc := ⟨.hbm, 98, rfl⟩
abbrev main_v66 : Ref sig .tc := ⟨.hbm, 99, rfl⟩
abbrev main_c_14 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_15 : Ref sig .tc := ⟨.hbm, 106, rfl⟩
abbrev main_v72 : Ref sig .tc := ⟨.hbm, 107, rfl⟩
abbrev main_v73 : Ref sig .tc := ⟨.hbm, 108, rfl⟩
abbrev main_c_16 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_c_17 : Ref sig .tc := ⟨.hbm, 116, rfl⟩
abbrev main_v80 : Ref sig .tc := ⟨.hbm, 117, rfl⟩
abbrev main_v81 : Ref sig .tc := ⟨.hbm, 118, rfl⟩
abbrev main_c_18 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_19 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_call3_cst : Ref sig .tc := ⟨.hbm, 135, rfl⟩
abbrev main_call3_v0 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_20 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_21 : Ref sig .tc := ⟨.hbm, 150, rfl⟩
abbrev main_v108 : Ref sig .tc := ⟨.hbm, 151, rfl⟩
abbrev main_v109 : Ref sig .tc := ⟨.hbm, 152, rfl⟩
abbrev main_cst_22 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x1 : S_.BroadcastsInDim S100000x1 (![] : Fin 0 → Fin S100000x1.rank)
  bcast_S_S100000x2 : S_.BroadcastsInDim S100000x2 (![] : Fin 0 → Fin S100000x2.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x2_S100000x2_1_0_0_1_n_n_wf : DotDims.WF S100000x128 S128x2 S100000x2 [1] [0] [0] [1] [] []
  dot_S100000x128_S128x128_S100000x128_1_0_0_1_n_n_wf : DotDims.WF S100000x128 S128x128 S100000x128 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The mathematics both programs compute, stated once over literal shapes.

  Two graph-convolution layers over N = 100000 nodes and E' = 1700000 messages (the 1600000 given edges and one self-loop
  per node). With `s`, `d` the messages' source and target nodes, `deg` the number of messages arriving at a node,
  `dinv = deg^(-1/2)` where `deg > 0` and `0` elsewhere, and `norm e = dinv (s e) · dinv (d e)`:

    agg Y       = the array whose row `v` is the sum over the messages `e` with `d e = v` of `norm e · Y[s e, :]`
    h1          = max (agg (x · W1) + b1, 0)
    logits_c    = h1 · Wc + bc
    h2          = max (agg (h1 · W2) + b2, 0)
    result      = 1/2 · logits_c + 1/2 · ((α · h2 + (1 − α) · h1) · Wf + bf),      α the per-node scalar `h_node`.

  The integer and gather/scatter stages (`srcIdx`, `dstIdx`, `norm`, `agg`) are kept as the host operations both programs
  apply, generic in the float instance; the dense stages are index-by-index functions over the extended reals: a matrix
  product is the sum over the contracted coordinate, a bias is read at the column, the blend at the row.
-/
import proofs.«101168_j18287970746774_1_alg».proof.Proof.Gen.KernelIdeal
import Idealize.ShloMosaic.PureOps.Ideal
import Idealize.ShloMosaic.Lib.ValueIdx

noncomputable section

namespace Cert.Spec

open Cert.KernelIdeal Cert.KernelIdeal.Facts₀ Idealize.ShloMosaic Idealize.ShloMosaic.ValueIdx

/-! ## The integer and gather/scatter stages, as the host applies them (any float instance) -/

section Host
variable {F : FTy → Type} [FloatOps F]

/-- The messages' source nodes: row 0 of `edge_index`, then the nodes themselves (the self-loops). -/
def srcIdx (ei : (⟨S2x1600000, .i32⟩ : BufTy).Contents (Elt F)) : (⟨S1700000, .i32⟩ : BufTy).Contents (Elt F) :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The messages' target nodes: row 1 of `edge_index`, then the nodes themselves. -/
def dstIdx (ei : (⟨S2x1600000, .i32⟩ : BufTy).Contents (Elt F)) : (⟨S1700000, .i32⟩ : BufTy).Contents (Elt F) :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A node index as jnp's indexing reads it: a negative one counts from the end. -/
def wrapIdx (s : (⟨S1700000, .i32⟩ : BufTy).Contents (Elt F)) : (⟨S1700000, .i32⟩ : BufTy).Contents (Elt F) :=
  select (cmpi .slt s (broadcastInDim S1700000 ![] bcast_S_S1700000 (constantI S_ 32 0#32)))
    (addi s (broadcastInDim S1700000 ![] bcast_S_S1700000 (constantI S_ 32 100000#32))) s

/-- The number of messages arriving at each node. -/
def deg (ei : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32))
    (broadcastInDim S1700000x1 ![0] bcast_S1700000_S1700000x1_0 (dstIdx ei)) (broadcastInDim S1700000 ![] bcast_S_S1700000 (constant S_ .f32 0x3F800000#32))

/-- `deg^(-1/2)` where the degree is positive, `0` elsewhere. -/
def dinv (ei : (⟨S2x1600000, .i32⟩ : BufTy).Contents (Elt F)) : (⟨S100000, .f32⟩ : BufTy).Contents (Elt F) :=
  select (cmpf .ogt (deg ei) (broadcastInDim S100000 ![] bcast_S_S100000 (constant S_ .f32 0x00000000#32))) (Host.rsqrt (deg ei))
    (broadcastInDim S100000 ![] bcast_S_S100000 (id (constant S_ .f32 0x00000000#32)))

/-- The symmetric normalisation of each message: `dinv` at its source times `dinv` at its target. -/
def norm (ei : (⟨S2x1600000, .i32⟩ : BufTy).Contents (Elt F)) : (⟨S1700000, .f32⟩ : BufTy).Contents (Elt F) :=
  mulf (Host.gather gather_S100000_S1700000x1_S1700000_n_0_n_n_0_1_1 (dinv ei) (broadcastInDim S1700000x1 ![0] bcast_S1700000_S1700000x1_0 (wrapIdx (srcIdx ei))))
    (Host.gather gather_S100000_S1700000x1_S1700000_n_0_n_n_0_1_1 (dinv ei) (broadcastInDim S1700000x1 ![0] bcast_S1700000_S1700000x1_0 (wrapIdx (dstIdx ei))))

/-- One aggregation: gather the source rows, scale each by its message's normalisation, add into the target rows. -/
def agg (y : (⟨S100000x128, .f32⟩ : BufTy).Contents (Elt F)) (s d : (⟨S1700000, .i32⟩ : BufTy).Contents (Elt F))
    (nrm : (⟨S1700000, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32))
    (broadcastInDim S1700000x1 ![0] bcast_S1700000_S1700000x1_0 d)
    (mulf (Host.gather gather_S100000x128_S1700000x1_S1700000x128_1_0_n_n_0_1_1128 y (broadcastInDim S1700000x1 ![0] bcast_S1700000_S1700000x1_0 (wrapIdx s)))
      (broadcastInDim S1700000x128 ![0, 1] bcast_S1700000x1_S1700000x128_0_1 (broadcastInDim S1700000x1 ![0] bcast_S1700000_S1700000x1_0 nrm)))

end Host

/-! ## The dense stages, index by index over the extended reals -/

/-- `0.0`, `1.0` and `0.5` as the programs spell them. -/
abbrev zero : EReal := Ideal.ofBits .f32 0x00000000#32
abbrev one : EReal := Ideal.ofBits .f32 0x3F800000#32
abbrev half : EReal := Ideal.ofBits .f32 0x3F000000#32

/-- A length-128 vector as a 1 × 128 row. -/
def row128 (x : FVec Ideal S128 .f32) : FVec Ideal S1x128 .f32 := fun j => x (ix1 (j 1))
/-- A length-2 vector as a 1 × 2 row. -/
def row2 (x : FVec Ideal S2 .f32) : FVec Ideal S1x2 .f32 := fun j => x (ix1 (j 1))
/-- A per-node scalar as an N × 1 column. -/
def col (x : FVec Ideal S100000 .f32) : FVec Ideal S100000x1 .f32 := fun j => x (ix1 (j 0))

/-- `X · W` for X : N × 256, W : 256 × 128. -/
def mm256 (X : FVec Ideal S100000x256 .f32) (W : FVec Ideal S256x128 .f32) : FVec Ideal S100000x128 .f32 :=
  fun i => ∑ k : Fin 256, X (ix2 (i 0) k) * W (ix2 k (i 1))

/-- `H · W` for H : N × 128, W : 128 × 128. -/
def mm128 (H : FVec Ideal S100000x128 .f32) (W : FVec Ideal S128x128 .f32) : FVec Ideal S100000x128 .f32 :=
  fun i => ∑ k : Fin 128, H (ix2 (i 0) k) * W (ix2 k (i 1))

/-- `max (A + b, 0)`, the bias a row read at the column. -/
def reluBias (A : FVec Ideal S100000x128 .f32) (b : FVec Ideal S1x128 .f32) : FVec Ideal S100000x128 .f32 :=
  fun i => max (A i + b (ix2 0 (i 1))) zero

/-- `H · W + b` for H : N × 128, W : 128 × 2, the bias a row read at the column. -/
def classify (H : FVec Ideal S100000x128 .f32) (W : FVec Ideal S128x2 .f32) (b : FVec Ideal S1x2 .f32) : FVec Ideal S100000x2 .f32 :=
  fun i => (∑ k : Fin 128, H (ix2 (i 0) k) * W (ix2 k (i 1))) + b (ix2 0 (i 1))

/-- The last stage: `1/2 · LC + 1/2 · ((α · max (A2 + b2, 0) + (1 − α) · H1) · Wf + bf)`, α a column read at the row. -/
def final (A2 : FVec Ideal S100000x128 .f32) (b2 : FVec Ideal S1x128 .f32) (H1 : FVec Ideal S100000x128 .f32)
    (α : FVec Ideal S100000x1 .f32) (Wf : FVec Ideal S128x2 .f32) (bf : FVec Ideal S1x2 .f32) (LC : FVec Ideal S100000x2 .f32) :
    FVec Ideal S100000x2 .f32 :=
  fun i => half * LC i + half * ((∑ k : Fin 128,
      (α (ix2 (i 0) 0) * max (A2 (ix2 (i 0) k) + b2 (ix2 0 k)) zero + (one - α (ix2 (i 0) 0)) * H1 (ix2 (i 0) k)) * Wf (ix2 k (i 1)))
    + bf (ix2 0 (i 1)))

/-- The first layer's activations. -/
def h1 (x : FVec Ideal S100000x256 .f32) (ei : (⟨S2x1600000, .i32⟩ : BufTy).Contents (Elt Ideal)) (W1 : FVec Ideal S256x128 .f32)
    (b1 : FVec Ideal S128 .f32) : FVec Ideal S100000x128 .f32 :=
  reluBias (agg (F := Ideal) (mm256 x W1) (srcIdx ei) (dstIdx ei) (norm ei)) (row128 b1)

/-- The whole result as one function of the eleven arguments. -/
def out (x : FVec Ideal S100000x256 .f32) (ei : (⟨S2x1600000, .i32⟩ : BufTy).Contents (Elt Ideal)) (hn : FVec Ideal S100000 .f32)
    (W1 : FVec Ideal S256x128 .f32) (b1 : FVec Ideal S128 .f32) (W2 : FVec Ideal S128x128 .f32) (b2 : FVec Ideal S128 .f32)
    (Wc : FVec Ideal S128x2 .f32) (bc : FVec Ideal S2 .f32) (Wf : FVec Ideal S128x2 .f32) (bf : FVec Ideal S2 .f32) : FVec Ideal S100000x2 .f32 :=
  final (agg (F := Ideal) (mm128 (h1 x ei W1 b1) W2) (srcIdx ei) (dstIdx ei) (norm ei)) (row128 b2) (h1 x ei W1 b1) (col hn) Wf (row2 bf)
    (classify (h1 x ei W1 b1) Wc (row2 bc))

end Cert.Spec

end
-- ==== Proof.HostStretches.lean ====
/-
  The kernel program's host stretches, each read once over a generic valuation of the buffers.

  A stretch of host operations writes each of its results as its operations' term of the contents before it and leaves
  every other buffer alone. Stated for the results the later stages read: the messages' source and target nodes, the
  degree's comparison and inverse square root, their selection, the messages' normalisation; each aggregation (gather,
  scale, scatter-add) as `Cert.Spec.agg` of the array it gathers from; the bias vectors and the per-node scalar reshaped
  to a row or a column, which read at an index is the vector at the remaining coordinate.
-/
import proofs.«101168_j18287970746774_1_alg».proof.Proof.Gen.KernelIdeal.Frame
import proofs.«101168_j18287970746774_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KVal

open Cert.KernelIdeal Cert.KernelIdeal.Gen Idealize.ShloMosaic Idealize.ShloMosaic.TcCoe Idealize.SL.Sem Idealize.ShloMosaic.ValueIdx Idealize.ShloMosaic.StableHlo

/-! ## A reshape that adds a unit axis, read at an index -/

theorem row128_of_reshape (x : FVec Ideal S128 .f32) : shapeCast S1x128 x shapeCasts_S128_S1x128 = Cert.Spec.row128 x := by
  funext j
  refine (shapeCast_apply x shapeCasts_S128_S1x128 j (ix1 (j 1)) ?_)
  rw [Shape.rowMajor_val_one, Shape.rowMajor_val_two]
  have h0 : (j 0).val < 1 := (j 0).isLt
  show (j 1).val = (j 0).val * 128 + (j 1).val
  omega

theorem row2_of_reshape (x : FVec Ideal S2 .f32) : shapeCast S1x2 x shapeCasts_S2_S1x2 = Cert.Spec.row2 x := by
  funext j
  refine (shapeCast_apply x shapeCasts_S2_S1x2 j (ix1 (j 1)) ?_)
  rw [Shape.rowMajor_val_one, Shape.rowMajor_val_two]
  have h0 : (j 0).val < 1 := (j 0).isLt
  show (j 1).val = (j 0).val * 2 + (j 1).val
  omega

theorem col_of_reshape (x : FVec Ideal S100000 .f32) : shapeCast S100000x1 x shapeCasts_S100000_S100000x1 = Cert.Spec.col x := by
  funext j
  refine (shapeCast_apply x shapeCasts_S100000_S100000x1 j (ix1 (j 0)) ?_)
  rw [Shape.rowMajor_val_one, Shape.rowMajor_val_two]
  have h1 : (j 1).val < 1 := (j 1).isLt
  show (j 0).val = (j 0).val * 1 + (j 1).val
  omega

variable {F : FTy → Type} [FloatOps F]

/-! ## The first host stretch, in three steps over a generic valuation -/

section Stretch0
variable (Wg : Valuation τ sig (Elt F))

theorem s0a_v5 : StableHlo.after hostOps0 Wg (Proc.devRef .tc main_v5) = Cert.Spec.srcIdx (F := F) (Wg (Proc.devRef .tc main_arg1)) := by
  after_results
  rfl
theorem s0a_v6 : StableHlo.after hostOps0 Wg (Proc.devRef .tc main_v6) = Cert.Spec.dstIdx (F := F) (Wg (Proc.devRef .tc main_arg1)) := by
  after_results
  rfl
theorem s0a_v12 : StableHlo.after hostOps0 Wg (Proc.devRef .tc main_v12)
    = cmpf (F := F) .ogt (Cert.Spec.deg (F := F) (Wg (Proc.devRef .tc main_arg1))) (broadcastInDim S100000 ![] bcast_S_S100000 (constant S_ .f32 0x00000000#32)) := by
  after_results
  rfl
theorem s0a_v13 : StableHlo.after hostOps0 Wg (Proc.devRef .tc main_v13) = Host.rsqrt (Cert.Spec.deg (F := F) (Wg (Proc.devRef .tc main_arg1))) := by
  after_results
  rfl
theorem s0a_cst2 : StableHlo.after hostOps0 Wg (Proc.devRef .tc main_cst_2) = constant (F := F) S_ .f32 0x00000000#32 := by
  after_results
theorem s0b_v14 : StableHlo.after hostOps0_1 Wg (Proc.devRef .tc main_v14)
    = select (Wg (Proc.devRef .tc main_v12)) (Wg (Proc.devRef .tc main_v13)) (broadcastInDim S100000 ![] bcast_S_S100000 (id (Wg (Proc.devRef .tc main_cst_2)))) := by
  after_results
  rfl
theorem s0b_v5 : StableHlo.after hostOps0_1 Wg (Proc.devRef .tc main_v5) = Wg (Proc.devRef .tc main_v5) := by
  after_results
theorem s0b_v6 : StableHlo.after hostOps0_1 Wg (Proc.devRef .tc main_v6) = Wg (Proc.devRef .tc main_v6) := by
  after_results
set_option maxHeartbeats 4000000 in
theorem s0c_v29 : StableHlo.after hostOps0_2 Wg (Proc.devRef .tc main_v29)
    = mulf (Host.gather gather_S100000_S1700000x1_S1700000_n_0_n_n_0_1_1 (Wg (Proc.devRef .tc main_v14)) (broadcastInDim S1700000x1 ![0] bcast_S1700000_S1700000x1_0 (Cert.Spec.wrapIdx (F := F) (Wg (Proc.devRef .tc main_v5)))))
        (Host.gather gather_S100000_S1700000x1_S1700000_n_0_n_n_0_1_1 (Wg (Proc.devRef .tc main_v14)) (broadcastInDim S1700000x1 ![0] bcast_S1700000_S1700000x1_0 (Cert.Spec.wrapIdx (F := F) (Wg (Proc.devRef .tc main_v6))))) := by
  after_results
  rfl
theorem s0c_v5 : StableHlo.after hostOps0_2 Wg (Proc.devRef .tc main_v5) = Wg (Proc.devRef .tc main_v5) := by
  after_results
theorem s0c_v6 : StableHlo.after hostOps0_2 Wg (Proc.devRef .tc main_v6) = Wg (Proc.devRef .tc main_v6) := by
  after_results

end Stretch0

/-! ## The later host stretches over a generic valuation -/

section Stretches
variable (Wg : Valuation τ sig (Elt F))

set_option maxHeartbeats 4000000 in
theorem s1_v43 : StableHlo.after hostOps1 Wg (Proc.devRef .tc main_v43)
    = Cert.Spec.agg (F := F) (Wg (Proc.devRef .tc main_v30)) (Wg (Proc.devRef .tc main_v5)) (Wg (Proc.devRef .tc main_v6)) (Wg (Proc.devRef .tc main_v29)) := by
  after_results
  rfl
theorem s1_v44 : StableHlo.after hostOps1 Wg (Proc.devRef .tc main_v44) = shapeCast S1x128 (Wg (Proc.devRef .tc main_arg4)) shapeCasts_S128_S1x128 := by
  after_results
  rfl
theorem s1_v45 : StableHlo.after hostOps1 Wg (Proc.devRef .tc main_v45) = shapeCast S1x2 (Wg (Proc.devRef .tc main_arg8)) shapeCasts_S2_S1x2 := by
  after_results
  rfl
theorem s1_main_v5 : StableHlo.after hostOps1 Wg (Proc.devRef .tc main_v5) = Wg (Proc.devRef .tc main_v5) := by
  after_results
theorem s1_main_v6 : StableHlo.after hostOps1 Wg (Proc.devRef .tc main_v6) = Wg (Proc.devRef .tc main_v6) := by
  after_results
theorem s1_main_v29 : StableHlo.after hostOps1 Wg (Proc.devRef .tc main_v29) = Wg (Proc.devRef .tc main_v29) := by
  after_results
theorem s1_main_arg2 : StableHlo.after hostOps1 Wg (Proc.devRef .tc main_arg2) = Wg (Proc.devRef .tc main_arg2) := by
  after_results
theorem s1_main_arg5 : StableHlo.after hostOps1 Wg (Proc.devRef .tc main_arg5) = Wg (Proc.devRef .tc main_arg5) := by
  after_results
theorem s1_main_arg6 : StableHlo.after hostOps1 Wg (Proc.devRef .tc main_arg6) = Wg (Proc.devRef .tc main_arg6) := by
  after_results
theorem s1_main_arg7 : StableHlo.after hostOps1 Wg (Proc.devRef .tc main_arg7) = Wg (Proc.devRef .tc main_arg7) := by
  after_results
theorem s1_main_arg9 : StableHlo.after hostOps1 Wg (Proc.devRef .tc main_arg9) = Wg (Proc.devRef .tc main_arg9) := by
  after_results
theorem s1_main_arg10 : StableHlo.after hostOps1 Wg (Proc.devRef .tc main_arg10) = Wg (Proc.devRef .tc main_arg10) := by
  after_results

set_option maxHeartbeats 4000000 in
theorem s3_v60 : StableHlo.after hostOps3 Wg (Proc.devRef .tc main_v60)
    = Cert.Spec.agg (F := F) (Wg (Proc.devRef .tc main_v47)) (Wg (Proc.devRef .tc main_v5)) (Wg (Proc.devRef .tc main_v6)) (Wg (Proc.devRef .tc main_v29)) := by
  after_results
  rfl
theorem s3_v61 : StableHlo.after hostOps3 Wg (Proc.devRef .tc main_v61) = shapeCast S100000x1 (Wg (Proc.devRef .tc main_arg2)) shapeCasts_S100000_S100000x1 := by
  after_results
  rfl
theorem s3_v62 : StableHlo.after hostOps3 Wg (Proc.devRef .tc main_v62) = shapeCast S1x128 (Wg (Proc.devRef .tc main_arg6)) shapeCasts_S128_S1x128 := by
  after_results
  rfl
theorem s3_v63 : StableHlo.after hostOps3 Wg (Proc.devRef .tc main_v63) = shapeCast S1x2 (Wg (Proc.devRef .tc main_arg10)) shapeCasts_S2_S1x2 := by
  after_results
  rfl
theorem s3_main_v46_0 : StableHlo.after hostOps3 Wg (Proc.devRef .tc main_v46_0) = Wg (Proc.devRef .tc main_v46_0) := by
  after_results
theorem s3_main_v46_1 : StableHlo.after hostOps3 Wg (Proc.devRef .tc main_v46_1) = Wg (Proc.devRef .tc main_v46_1) := by
  after_results
theorem s3_main_arg9 : StableHlo.after hostOps3 Wg (Proc.devRef .tc main_arg9) = Wg (Proc.devRef .tc main_arg9) := by
  after_results

end Stretches

end Cert.KernelIdeal.KVal

end
-- ==== Proof.Boundaries.lean ====
/-
  The buffer contents at the kernel program's boundaries, walked back one boundary at a time.

  The first host stretch, composed from its three pieces, leaves the messages' source and target nodes and their
  normalisation as `Cert.Spec.srcIdx`, `dstIdx`, `norm` of the edge list, and every argument as launched. A region leaves each
  of its output arrays at what its grid points write back, an input array as it found it, and every other buffer as entered.
-/
import proofs.«101168_j18287970746774_1_alg».proof.Proof.HostStretches

set_option maxRecDepth 16384

noncomputable section

namespace Cert.KernelIdeal.KVal

open Cert.KernelIdeal Cert.KernelIdeal.Gen Idealize.ShloMosaic Idealize.ShloMosaic.TcCoe Idealize.SL.Sem Idealize.ShloMosaic.ValueIdx Idealize.ShloMosaic.StableHlo

variable {F : FTy → Type} [FloatOps F]
variable (m : (ℓ : Loc nD τ sig) → Buf (Elt F) ℓ) (ρ : Dev nD → PrngReg)

/-! ## The first stretch, composed: the messages' indices and normalisation, and the arguments, as region 0 finds them -/

theorem l3_main_arg0 (c : Dev nD) : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results
theorem l3_main_arg2 (c : Dev nD) : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results
theorem l3_main_arg3 (c : Dev nD) : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results
theorem l3_main_arg4 (c : Dev nD) : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results
theorem l3_main_arg5 (c : Dev nD) : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  after_results
theorem l3_main_arg6 (c : Dev nD) : W3 m ρ c (Proc.devRef .tc main_arg6) = m ((c.tc : Thread nD τ).loc main_arg6) := by
  show StableHlo.after hostOps0_2 (StableHlo.after hostOps0_1 (StableHlo.after hostOps0 (W0 m ρ c))) (Proc.devRef .tc main_arg6) = _
  after_results
theorem l3_main_arg7 (c : Dev nD) : W3 m ρ c (Proc.devRef .tc main_arg7) = m ((c.tc : Thread nD τ).loc main_arg7) := by
  show StableHlo.after hostOps0_2 (StableHlo.after hostOps0_1 (StableHlo.after hostOps0 (W0 m ρ c))) (Proc.devRef .tc main_arg7) = _
  after_results
theorem l3_main_arg8 (c : Dev nD) : W3 m ρ c (Proc.devRef .tc main_arg8) = m ((c.tc : Thread nD τ).loc main_arg8) := by
  show StableHlo.after hostOps0_2 (StableHlo.after hostOps0_1 (StableHlo.after hostOps0 (W0 m ρ c))) (Proc.devRef .tc main_arg8) = _
  after_results
theorem l3_main_arg9 (c : Dev nD) : W3 m ρ c (Proc.devRef .tc main_arg9) = m ((c.tc : Thread nD τ).loc main_arg9) := by
  show StableHlo.after hostOps0_2 (StableHlo.after hostOps0_1 (StableHlo.after hostOps0 (W0 m ρ c))) (Proc.devRef .tc main_arg9) = _
  after_results
theorem l3_main_arg10 (c : Dev nD) : W3 m ρ c (Proc.devRef .tc main_arg10) = m ((c.tc : Thread nD τ).loc main_arg10) := by
  show StableHlo.after hostOps0_2 (StableHlo.after hostOps0_1 (StableHlo.after hostOps0 (W0 m ρ c))) (Proc.devRef .tc main_arg10) = _
  after_results

theorem l3_main_v5 (c : Dev nD) : W3 m ρ c (Proc.devRef .tc main_v5) = Cert.Spec.srcIdx (F := F) (m ((c.tc : Thread nD τ).loc main_arg1)) :=
  (s0c_v5 (W2 m ρ c)).trans ((s0b_v5 (W1 m ρ c)).trans (s0a_v5 (W0 m ρ c)))
theorem l3_main_v6 (c : Dev nD) : W3 m ρ c (Proc.devRef .tc main_v6) = Cert.Spec.dstIdx (F := F) (m ((c.tc : Thread nD τ).loc main_arg1)) :=
  (s0c_v6 (W2 m ρ c)).trans ((s0b_v6 (W1 m ρ c)).trans (s0a_v6 (W0 m ρ c)))
theorem l3_main_v29 (c : Dev nD) : W3 m ρ c (Proc.devRef .tc main_v29) = Cert.Spec.norm (F := F) (m ((c.tc : Thread nD τ).loc main_arg1)) := by
  refine (s0c_v29 (W2 m ρ c)).trans ?_
  have e14 : W2 m ρ c (Proc.devRef .tc main_v14) = _ := s0b_v14 (W1 m ρ c)
  have e5 : W2 m ρ c (Proc.devRef .tc main_v5) = _ := (s0b_v5 (W1 m ρ c)).trans (s0a_v5 (W0 m ρ c))
  have e6 : W2 m ρ c (Proc.devRef .tc main_v6) = _ := (s0b_v6 (W1 m ρ c)).trans (s0a_v6 (W0 m ρ c))
  have a12 : W1 m ρ c (Proc.devRef .tc main_v12) = _ := s0a_v12 (W0 m ρ c)
  have a13 : W1 m ρ c (Proc.devRef .tc main_v13) = _ := s0a_v13 (W0 m ρ c)
  have ac : W1 m ρ c (Proc.devRef .tc main_cst_2) = _ := s0a_cst2 (W0 m ρ c)
  rw [e14, e5, e6, a12, a13, ac]
  rfl

/-! ## The regions' exits -/

theorem l4_v30 (c : Dev nD) : W4 m ρ c (Proc.devRef .tc main_v30) = (dat0 (V3 m ρ) c).arrAt 2 cfg0.N := W4_arr m ρ c 2
theorem l4_main_v5 (c : Dev nD) : W4 m ρ c (Proc.devRef .tc main_v5) = W3 m ρ c (Proc.devRef .tc main_v5) := W4_of_ne m ρ c main_v5 (by decide)
theorem l4_main_v6 (c : Dev nD) : W4 m ρ c (Proc.devRef .tc main_v6) = W3 m ρ c (Proc.devRef .tc main_v6) := W4_of_ne m ρ c main_v6 (by decide)
theorem l4_main_v29 (c : Dev nD) : W4 m ρ c (Proc.devRef .tc main_v29) = W3 m ρ c (Proc.devRef .tc main_v29) := W4_of_ne m ρ c main_v29 (by decide)
theorem l4_main_arg2 (c : Dev nD) : W4 m ρ c (Proc.devRef .tc main_arg2) = W3 m ρ c (Proc.devRef .tc main_arg2) := W4_of_ne m ρ c main_arg2 (by decide)
theorem l4_main_arg4 (c : Dev nD) : W4 m ρ c (Proc.devRef .tc main_arg4) = W3 m ρ c (Proc.devRef .tc main_arg4) := W4_of_ne m ρ c main_arg4 (by decide)
theorem l4_main_arg5 (c : Dev nD) : W4 m ρ c (Proc.devRef .tc main_arg5) = W3 m ρ c (Proc.devRef .tc main_arg5) := W4_of_ne m ρ c main_arg5 (by decide)
theorem l4_main_arg6 (c : Dev nD) : W4 m ρ c (Proc.devRef .tc main_arg6) = W3 m ρ c (Proc.devRef .tc main_arg6) := W4_of_ne m ρ c main_arg6 (by decide)
theorem l4_main_arg7 (c : Dev nD) : W4 m ρ c (Proc.devRef .tc main_arg7) = W3 m ρ c (Proc.devRef .tc main_arg7) := W4_of_ne m ρ c main_arg7 (by decide)
theorem l4_main_arg8 (c : Dev nD) : W4 m ρ c (Proc.devRef .tc main_arg8) = W3 m ρ c (Proc.devRef .tc main_arg8) := W4_of_ne m ρ c main_arg8 (by decide)
theorem l4_main_arg9 (c : Dev nD) : W4 m ρ c (Proc.devRef .tc main_arg9) = W3 m ρ c (Proc.devRef .tc main_arg9) := W4_of_ne m ρ c main_arg9 (by decide)
theorem l4_main_arg10 (c : Dev nD) : W4 m ρ c (Proc.devRef .tc main_arg10) = W3 m ρ c (Proc.devRef .tc main_arg10) := W4_of_ne m ρ c main_arg10 (by decide)

theorem l6_v46_0 (c : Dev nD) : W6 m ρ c (Proc.devRef .tc main_v46_0) = (dat1 (V5 m ρ) c).arrAt 4 cfg1.N := W6_arr m ρ c 4
theorem l6_v46_1 (c : Dev nD) : W6 m ρ c (Proc.devRef .tc main_v46_1) = (dat1 (V5 m ρ) c).arrAt 5 cfg1.N := W6_arr m ρ c 5
theorem l6_main_v5 (c : Dev nD) : W6 m ρ c (Proc.devRef .tc main_v5) = W5 m ρ c (Proc.devRef .tc main_v5) := W6_of_ne m ρ c main_v5 (by decide)
theorem l6_main_v6 (c : Dev nD) : W6 m ρ c (Proc.devRef .tc main_v6) = W5 m ρ c (Proc.devRef .tc main_v6) := W6_of_ne m ρ c main_v6 (by decide)
theorem l6_main_v29 (c : Dev nD) : W6 m ρ c (Proc.devRef .tc main_v29) = W5 m ρ c (Proc.devRef .tc main_v29) := W6_of_ne m ρ c main_v29 (by decide)
theorem l6_main_arg2 (c : Dev nD) : W6 m ρ c (Proc.devRef .tc main_arg2) = W5 m ρ c (Proc.devRef .tc main_arg2) := W6_of_ne m ρ c main_arg2 (by decide)
theorem l6_main_arg5 (c : Dev nD) : W6 m ρ c (Proc.devRef .tc main_arg5) = W5 m ρ c (Proc.devRef .tc main_arg5) := W6_of_ne m ρ c main_arg5 (by decide)
theorem l6_main_arg6 (c : Dev nD) : W6 m ρ c (Proc.devRef .tc main_arg6) = W5 m ρ c (Proc.devRef .tc main_arg6) := W6_of_ne m ρ c main_arg6 (by decide)
theorem l6_main_arg9 (c : Dev nD) : W6 m ρ c (Proc.devRef .tc main_arg9) = W5 m ρ c (Proc.devRef .tc main_arg9) := W6_of_ne m ρ c main_arg9 (by decide)
theorem l6_main_arg10 (c : Dev nD) : W6 m ρ c (Proc.devRef .tc main_arg10) = W5 m ρ c (Proc.devRef .tc main_arg10) := W6_of_ne m ρ c main_arg10 (by decide)

theorem l7_v47 (c : Dev nD) : W7 m ρ c (Proc.devRef .tc main_v47) = (dat2 (V6 m ρ) c).arrAt 2 cfg2.N := W7_arr m ρ c 2
theorem l7_main_v46_0 (c : Dev nD) : W7 m ρ c (Proc.devRef .tc main_v46_0) = W6 m ρ c (Proc.devRef .tc main_v46_0) :=
  (W7_arr m ρ c 0).trans (((dat2 (V6 m ρ) c).arrAt_in 0 rfl _).trans (A_eq2 (V6 m ρ) c 0))
theorem l7_main_v46_1 (c : Dev nD) : W7 m ρ c (Proc.devRef .tc main_v46_1) = W6 m ρ c (Proc.devRef .tc main_v46_1) := W7_of_ne m ρ c main_v46_1 (by decide)
theorem l7_main_v5 (c : Dev nD) : W7 m ρ c (Proc.devRef .tc main_v5) = W6 m ρ c (Proc.devRef .tc main_v5) := W7_of_ne m ρ c main_v5 (by decide)
theorem l7_main_v6 (c : Dev nD) : W7 m ρ c (Proc.devRef .tc main_v6) = W6 m ρ c (Proc.devRef .tc main_v6) := W7_of_ne m ρ c main_v6 (by decide)
theorem l7_main_v29 (c : Dev nD) : W7 m ρ c (Proc.devRef .tc main_v29) = W6 m ρ c (Proc.devRef .tc main_v29) := W7_of_ne m ρ c main_v29 (by decide)
theorem l7_main_arg2 (c : Dev nD) : W7 m ρ c (Proc.devRef .tc main_arg2) = W6 m ρ c (Proc.devRef .tc main_arg2) := W7_of_ne m ρ c main_arg2 (by decide)
theorem l7_main_arg6 (c : Dev nD) : W7 m ρ c (Proc.devRef .tc main_arg6) = W6 m ρ c (Proc.devRef .tc main_arg6) := W7_of_ne m ρ c main_arg6 (by decide)
theorem l7_main_arg9 (c : Dev nD) : W7 m ρ c (Proc.devRef .tc main_arg9) = W6 m ρ c (Proc.devRef .tc main_arg9) := W7_of_ne m ρ c main_arg9 (by decide)
theorem l7_main_arg10 (c : Dev nD) : W7 m ρ c (Proc.devRef .tc main_arg10) = W6 m ρ c (Proc.devRef .tc main_arg10) := W7_of_ne m ρ c main_arg10 (by decide)

theorem l9_v64 (c : Dev nD) : W9 m ρ c (Proc.devRef .tc main_v64) = (dat3 (V8 m ρ) c).arrAt 7 cfg3.N := W9_arr m ρ c 7

end Cert.KernelIdeal.KVal

end
-- ==== Proof.KernelValue.lean ====
/-
  The kernel program's result as a function of its arguments.

  The program is four pipelined regions among stretches of host operations. The generated frame names the buffer
  contents at every boundary (a fold from the launch memory). Read here, boundary by boundary, at the buffers later stages
  use: a host stretch writes each of its results as its operations' term of the contents before it and leaves the other
  buffers alone; a region leaves each output array at what its twenty grid points write back and every other buffer as
  entered. Composed, the last region's output array is `Cert.Spec.out` of the eleven arguments.
-/
import proofs.«101168_j18287970746774_1_alg».proof.Proof.Boundaries

set_option maxRecDepth 16384

noncomputable section

namespace Cert.KernelIdeal.KVal

open Cert.KernelIdeal Cert.KernelIdeal.Gen Idealize.ShloMosaic Idealize.ShloMosaic.TcCoe Idealize.SL.Sem Idealize.ShloMosaic.ValueIdx Idealize.ShloMosaic.StableHlo

/-! ## The result, level by level over the extended reals

    Given what each region leaves in its output arrays as a function of what it finds in its input arrays (the five
    hypotheses), every boundary's contents at the buffers the later stages read are named functions of the arguments. -/

section Combine
variable (m : (ℓ : Loc nD τ sig) → Buf (Elt Ideal) ℓ) (ρ : Dev nD → PrngReg)
variable (h0 : ∀ (V : (c : Dev nD) → (b : Ref sig .tc) → Buf (Elt Ideal) ((c : Thread nD τ).loc b)) (c : Dev nD),
    (dat0 (F := Ideal) V c).arrAt 2 cfg0.N = Cert.Spec.mm256 (V c main_arg0) (V c main_arg3))
variable (h1a : ∀ (V : (c : Dev nD) → (b : Ref sig .tc) → Buf (Elt Ideal) ((c : Thread nD τ).loc b)) (c : Dev nD),
    (dat1 (F := Ideal) V c).arrAt 4 cfg1.N = Cert.Spec.reluBias (V c main_v43) (V c main_v44))
variable (h1b : ∀ (V : (c : Dev nD) → (b : Ref sig .tc) → Buf (Elt Ideal) ((c : Thread nD τ).loc b)) (c : Dev nD),
    (dat1 (F := Ideal) V c).arrAt 5 cfg1.N = Cert.Spec.classify (Cert.Spec.reluBias (V c main_v43) (V c main_v44)) (V c main_arg7) (V c main_v45))
variable (h2 : ∀ (V : (c : Dev nD) → (b : Ref sig .tc) → Buf (Elt Ideal) ((c : Thread nD τ).loc b)) (c : Dev nD),
    (dat2 (F := Ideal) V c).arrAt 2 cfg2.N = Cert.Spec.mm128 (V c main_v46_0) (V c main_arg5))
variable (h3 : ∀ (V : (c : Dev nD) → (b : Ref sig .tc) → Buf (Elt Ideal) ((c : Thread nD τ).loc b)) (c : Dev nD),
    (dat3 (F := Ideal) V c).arrAt 7 cfg3.N = Cert.Spec.final (V c main_v60) (V c main_v62) (V c main_v46_0) (V c main_v61) (V c main_arg9) (V c main_v63) (V c main_v46_1))

/-! ### After region 0 -/
include h0 in
theorem k4_main_v30 (c : Dev nD) : W4 m ρ c (Proc.devRef .tc main_v30) = (Cert.Spec.mm256 (m ((c.tc : Thread nD τ).loc main_arg0)) (m ((c.tc : Thread nD τ).loc main_arg3))) := by
  refine (l4_v30 m ρ c).trans ((h0 (V3 m ρ) c).trans ?_)
  show Cert.Spec.mm256 (W3 m ρ c (Proc.devRef .tc main_arg0)) (W3 m ρ c (Proc.devRef .tc main_arg3)) = _
  rw [l3_main_arg0, l3_main_arg3]
theorem k4_main_v5 (c : Dev nD) : W4 m ρ c (Proc.devRef .tc main_v5) = (Cert.Spec.srcIdx (F := Ideal) (m ((c.tc : Thread nD τ).loc main_arg1))) := (l4_main_v5 m ρ c).trans (l3_main_v5 m ρ c)
theorem k4_main_v6 (c : Dev nD) : W4 m ρ c (Proc.devRef .tc main_v6) = (Cert.Spec.dstIdx (F := Ideal) (m ((c.tc : Thread nD τ).loc main_arg1))) := (l4_main_v6 m ρ c).trans (l3_main_v6 m ρ c)
theorem k4_main_v29 (c : Dev nD) : W4 m ρ c (Proc.devRef .tc main_v29) = (Cert.Spec.norm (F := Ideal) (m ((c.tc : Thread nD τ).loc main_arg1))) := (l4_main_v29 m ρ c).trans (l3_main_v29 m ρ c)
theorem k4_main_arg2 (c : Dev nD) : W4 m ρ c (Proc.devRef .tc main_arg2) = (m ((c.tc : Thread nD τ).loc main_arg2)) := (l4_main_arg2 m ρ c).trans (l3_main_arg2 m ρ c)
theorem k4_main_arg4 (c : Dev nD) : W4 m ρ c (Proc.devRef .tc main_arg4) = (m ((c.tc : Thread nD τ).loc main_arg4)) := (l4_main_arg4 m ρ c).trans (l3_main_arg4 m ρ c)
theorem k4_main_arg5 (c : Dev nD) : W4 m ρ c (Proc.devRef .tc main_arg5) = (m ((c.tc : Thread nD τ).loc main_arg5)) := (l4_main_arg5 m ρ c).trans (l3_main_arg5 m ρ c)
theorem k4_main_arg6 (c : Dev nD) : W4 m ρ c (Proc.devRef .tc main_arg6) = (m ((c.tc : Thread nD τ).loc main_arg6)) := (l4_main_arg6 m ρ c).trans (l3_main_arg6 m ρ c)
theorem k4_main_arg7 (c : Dev nD) : W4 m ρ c (Proc.devRef .tc main_arg7) = (m ((c.tc : Thread nD τ).loc main_arg7)) := (l4_main_arg7 m ρ c).trans (l3_main_arg7 m ρ c)
theorem k4_main_arg8 (c : Dev nD) : W4 m ρ c (Proc.devRef .tc main_arg8) = (m ((c.tc : Thread nD τ).loc main_arg8)) := (l4_main_arg8 m ρ c).trans (l3_main_arg8 m ρ c)
theorem k4_main_arg9 (c : Dev nD) : W4 m ρ c (Proc.devRef .tc main_arg9) = (m ((c.tc : Thread nD τ).loc main_arg9)) := (l4_main_arg9 m ρ c).trans (l3_main_arg9 m ρ c)
theorem k4_main_arg10 (c : Dev nD) : W4 m ρ c (Proc.devRef .tc main_arg10) = (m ((c.tc : Thread nD τ).loc main_arg10)) := (l4_main_arg10 m ρ c).trans (l3_main_arg10 m ρ c)

/-! ### After the second host stretch -/
include h0 in
theorem k5_main_v43 (c : Dev nD) : W5 m ρ c (Proc.devRef .tc main_v43) = Cert.Spec.agg (F := Ideal) (Cert.Spec.mm256 (m ((c.tc : Thread nD τ).loc main_arg0)) (m ((c.tc : Thread nD τ).loc main_arg3))) (Cert.Spec.srcIdx (F := Ideal) (m ((c.tc : Thread nD τ).loc main_arg1))) (Cert.Spec.dstIdx (F := Ideal) (m ((c.tc : Thread nD τ).loc main_arg1))) (Cert.Spec.norm (F := Ideal) (m ((c.tc : Thread nD τ).loc main_arg1))) := by
  refine (s1_v43 (W4 m ρ c)).trans ?_
  rw [k4_main_v30 m ρ h0 c, k4_main_v5 m ρ c, k4_main_v6 m ρ c, k4_main_v29 m ρ c]
theorem k5_main_v44 (c : Dev nD) : W5 m ρ c (Proc.devRef .tc main_v44) = Cert.Spec.row128 (m ((c.tc : Thread nD τ).loc main_arg4)) := by
  refine (s1_v44 (W4 m ρ c)).trans ?_
  rw [k4_main_arg4 m ρ c]; exact row128_of_reshape _
theorem k5_main_v45 (c : Dev nD) : W5 m ρ c (Proc.devRef .tc main_v45) = Cert.Spec.row2 (m ((c.tc : Thread nD τ).loc main_arg8)) := by
  refine (s1_v45 (W4 m ρ c)).trans ?_
  rw [k4_main_arg8 m ρ c]; exact row2_of_reshape _
theorem k5_main_v5 (c : Dev nD) : W5 m ρ c (Proc.devRef .tc main_v5) = (Cert.Spec.srcIdx (F := Ideal) (m ((c.tc : Thread nD τ).loc main_arg1))) := (s1_main_v5 (W4 m ρ c)).trans (k4_main_v5 m ρ c)
theorem k5_main_v6 (c : Dev nD) : W5 m ρ c (Proc.devRef .tc main_v6) = (Cert.Spec.dstIdx (F := Ideal) (m ((c.tc : Thread nD τ).loc main_arg1))) := (s1_main_v6 (W4 m ρ c)).trans (k4_main_v6 m ρ c)
theorem k5_main_v29 (c : Dev nD) : W5 m ρ c (Proc.devRef .tc main_v29) = (Cert.Spec.norm (F := Ideal) (m ((c.tc : Thread nD τ).loc main_arg1))) := (s1_main_v29 (W4 m ρ c)).trans (k4_main_v29 m ρ c)
theorem k5_main_arg2 (c : Dev nD) : W5 m ρ c (Proc.devRef .tc main_arg2) = (m ((c.tc : Thread nD τ).loc main_arg2)) := (s1_main_arg2 (W4 m ρ c)).trans (k4_main_arg2 m ρ c)
theorem k5_main_arg5 (c : Dev nD) : W5 m ρ c (Proc.devRef .tc main_arg5) = (m ((c.tc : Thread nD τ).loc main_arg5)) := (s1_main_arg5 (W4 m ρ c)).trans (k4_main_arg5 m ρ c)
theorem k5_main_arg6 (c : Dev nD) : W5 m ρ c (Proc.devRef .tc main_arg6) = (m ((c.tc : Thread nD τ).loc main_arg6)) := (s1_main_arg6 (W4 m ρ c)).trans (k4_main_arg6 m ρ c)
theorem k5_main_arg7 (c : Dev nD) : W5 m ρ c (Proc.devRef .tc main_arg7) = (m ((c.tc : Thread nD τ).loc main_arg7)) := (s1_main_arg7 (W4 m ρ c)).trans (k4_main_arg7 m ρ c)
theorem k5_main_arg9 (c : Dev nD) : W5 m ρ c (Proc.devRef .tc main_arg9) = (m ((c.tc : Thread nD τ).loc main_arg9)) := (s1_main_arg9 (W4 m ρ c)).trans (k4_main_arg9 m ρ c)
theorem k5_main_arg10 (c : Dev nD) : W5 m ρ c (Proc.devRef .tc main_arg10) = (m ((c.tc : Thread nD τ).loc main_arg10)) := (s1_main_arg10 (W4 m ρ c)).trans (k4_main_arg10 m ρ c)

/-! ### After region 1 -/
include h0 h1a in
theorem k6_main_v46_0 (c : Dev nD) : W6 m ρ c (Proc.devRef .tc main_v46_0) = (Cert.Spec.h1 (m ((c.tc : Thread nD τ).loc main_arg0)) (m ((c.tc : Thread nD τ).loc main_arg1)) (m ((c.tc : Thread nD τ).loc main_arg3)) (m ((c.tc : Thread nD τ).loc main_arg4))) := by
  refine (l6_v46_0 m ρ c).trans ((h1a (V5 m ρ) c).trans ?_)
  show Cert.Spec.reluBias (W5 m ρ c (Proc.devRef .tc main_v43)) (W5 m ρ c (Proc.devRef .tc main_v44)) = _
  rw [k5_main_v43 m ρ h0 c, k5_main_v44 m ρ c]
  rfl
include h0 h1b in
theorem k6_main_v46_1 (c : Dev nD) : W6 m ρ c (Proc.devRef .tc main_v46_1) = (Cert.Spec.classify (Cert.Spec.h1 (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg7)) (Cert.Spec.row2 (m ((c.tc : Thread nD τ).loc main_arg8)))) := by
  refine (l6_v46_1 m ρ c).trans ((h1b (V5 m ρ) c).trans ?_)
  show Cert.Spec.classify (Cert.Spec.reluBias (W5 m ρ c (Proc.devRef .tc main_v43)) (W5 m ρ c (Proc.devRef .tc main_v44))) (W5 m ρ c (Proc.devRef .tc main_arg7)) (W5 m ρ c (Proc.devRef .tc main_v45)) = _
  rw [k5_main_v43 m ρ h0 c, k5_main_v44 m ρ c, k5_main_arg7 m ρ c, k5_main_v45 m ρ c]
  rfl
theorem k6_main_v5 (c : Dev nD) : W6 m ρ c (Proc.devRef .tc main_v5) = (Cert.Spec.srcIdx (F := Ideal) (m ((c.tc : Thread nD τ).loc main_arg1))) := (l6_main_v5 m ρ c).trans (k5_main_v5 m ρ c)
theorem k6_main_v6 (c : Dev nD) : W6 m ρ c (Proc.devRef .tc main_v6) = (Cert.Spec.dstIdx (F := Ideal) (m ((c.tc : Thread nD τ).loc main_arg1))) := (l6_main_v6 m ρ c).trans (k5_main_v6 m ρ c)
theorem k6_main_v29 (c : Dev nD) : W6 m ρ c (Proc.devRef .tc main_v29) = (Cert.Spec.norm (F := Ideal) (m ((c.tc : Thread nD τ).loc main_arg1))) := (l6_main_v29 m ρ c).trans (k5_main_v29 m ρ c)
theorem k6_main_arg2 (c : Dev nD) : W6 m ρ c (Proc.devRef .tc main_arg2) = (m ((c.tc : Thread nD τ).loc main_arg2)) := (l6_main_arg2 m ρ c).trans (k5_main_arg2 m ρ c)
theorem k6_main_arg5 (c : Dev nD) : W6 m ρ c (Proc.devRef .tc main_arg5) = (m ((c.tc : Thread nD τ).loc main_arg5)) := (l6_main_arg5 m ρ c).trans (k5_main_arg5 m ρ c)
theorem k6_main_arg6 (c : Dev nD) : W6 m ρ c (Proc.devRef .tc main_arg6) = (m ((c.tc : Thread nD τ).loc main_arg6)) := (l6_main_arg6 m ρ c).trans (k5_main_arg6 m ρ c)
theorem k6_main_arg9 (c : Dev nD) : W6 m ρ c (Proc.devRef .tc main_arg9) = (m ((c.tc : Thread nD τ).loc main_arg9)) := (l6_main_arg9 m ρ c).trans (k5_main_arg9 m ρ c)
theorem k6_main_arg10 (c : Dev nD) : W6 m ρ c (Proc.devRef .tc main_arg10) = (m ((c.tc : Thread nD τ).loc main_arg10)) := (l6_main_arg10 m ρ c).trans (k5_main_arg10 m ρ c)

/-! ### After region 2 -/
include h0 h1a h2 in
theorem k7_main_v47 (c : Dev nD) : W7 m ρ c (Proc.devRef .tc main_v47) = (Cert.Spec.mm128 (Cert.Spec.h1 (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg5))) := by
  refine (l7_v47 m ρ c).trans ((h2 (V6 m ρ) c).trans ?_)
  show Cert.Spec.mm128 (W6 m ρ c (Proc.devRef .tc main_v46_0)) (W6 m ρ c (Proc.devRef .tc main_arg5)) = _
  rw [k6_main_v46_0 m ρ h0 h1a c, k6_main_arg5 m ρ c]
include h0 h1a in
theorem k7_main_v46_0 (c : Dev nD) : W7 m ρ c (Proc.devRef .tc main_v46_0) = (Cert.Spec.h1 (m ((c.tc : Thread nD τ).loc main_arg0)) (m ((c.tc : Thread nD τ).loc main_arg1)) (m ((c.tc : Thread nD τ).loc main_arg3)) (m ((c.tc : Thread nD τ).loc main_arg4))) := (l7_main_v46_0 m ρ c).trans (k6_main_v46_0 m ρ h0 h1a c)
include h0 h1b in
theorem k7_main_v46_1 (c : Dev nD) : W7 m ρ c (Proc.devRef .tc main_v46_1) = (Cert.Spec.classify (Cert.Spec.h1 (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg7)) (Cert.Spec.row2 (m ((c.tc : Thread nD τ).loc main_arg8)))) := (l7_main_v46_1 m ρ c).trans (k6_main_v46_1 m ρ h0 h1b c)
theorem k7_main_v5 (c : Dev nD) : W7 m ρ c (Proc.devRef .tc main_v5) = (Cert.Spec.srcIdx (F := Ideal) (m ((c.tc : Thread nD τ).loc main_arg1))) := (l7_main_v5 m ρ c).trans (k6_main_v5 m ρ c)
theorem k7_main_v6 (c : Dev nD) : W7 m ρ c (Proc.devRef .tc main_v6) = (Cert.Spec.dstIdx (F := Ideal) (m ((c.tc : Thread nD τ).loc main_arg1))) := (l7_main_v6 m ρ c).trans (k6_main_v6 m ρ c)
theorem k7_main_v29 (c : Dev nD) : W7 m ρ c (Proc.devRef .tc main_v29) = (Cert.Spec.norm (F := Ideal) (m ((c.tc : Thread nD τ).loc main_arg1))) := (l7_main_v29 m ρ c).trans (k6_main_v29 m ρ c)
theorem k7_main_arg2 (c : Dev nD) : W7 m ρ c (Proc.devRef .tc main_arg2) = (m ((c.tc : Thread nD τ).loc main_arg2)) := (l7_main_arg2 m ρ c).trans (k6_main_arg2 m ρ c)
theorem k7_main_arg6 (c : Dev nD) : W7 m ρ c (Proc.devRef .tc main_arg6) = (m ((c.tc : Thread nD τ).loc main_arg6)) := (l7_main_arg6 m ρ c).trans (k6_main_arg6 m ρ c)
theorem k7_main_arg9 (c : Dev nD) : W7 m ρ c (Proc.devRef .tc main_arg9) = (m ((c.tc : Thread nD τ).loc main_arg9)) := (l7_main_arg9 m ρ c).trans (k6_main_arg9 m ρ c)
theorem k7_main_arg10 (c : Dev nD) : W7 m ρ c (Proc.devRef .tc main_arg10) = (m ((c.tc : Thread nD τ).loc main_arg10)) := (l7_main_arg10 m ρ c).trans (k6_main_arg10 m ρ c)

/-! ### After the last host stretch, and the result -/
include h0 h1a h2 in
theorem k8_main_v60 (c : Dev nD) : W8 m ρ c (Proc.devRef .tc main_v60) = Cert.Spec.agg (F := Ideal) (Cert.Spec.mm128 (Cert.Spec.h1 (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg5))) (Cert.Spec.srcIdx (F := Ideal) (m ((c.tc : Thread nD τ).loc main_arg1))) (Cert.Spec.dstIdx (F := Ideal) (m ((c.tc : Thread nD τ).loc main_arg1))) (Cert.Spec.norm (F := Ideal) (m ((c.tc : Thread nD τ).loc main_arg1))) := by
  refine (s3_v60 (W7 m ρ c)).trans ?_
  rw [k7_main_v47 m ρ h0 h1a h2 c, k7_main_v5 m ρ c, k7_main_v6 m ρ c, k7_main_v29 m ρ c]
theorem k8_main_v61 (c : Dev nD) : W8 m ρ c (Proc.devRef .tc main_v61) = Cert.Spec.col (m ((c.tc : Thread nD τ).loc main_arg2)) := by
  refine (s3_v61 (W7 m ρ c)).trans ?_
  rw [k7_main_arg2 m ρ c]; exact col_of_reshape _
theorem k8_main_v62 (c : Dev nD) : W8 m ρ c (Proc.devRef .tc main_v62) = Cert.Spec.row128 (m ((c.tc : Thread nD τ).loc main_arg6)) := by
  refine (s3_v62 (W7 m ρ c)).trans ?_
  rw [k7_main_arg6 m ρ c]; exact row128_of_reshape _
theorem k8_main_v63 (c : Dev nD) : W8 m ρ c (Proc.devRef .tc main_v63) = Cert.Spec.row2 (m ((c.tc : Thread nD τ).loc main_arg10)) := by
  refine (s3_v63 (W7 m ρ c)).trans ?_
  rw [k7_main_arg10 m ρ c]; exact row2_of_reshape _
include h0 h1a in
theorem k8_main_v46_0 (c : Dev nD) : W8 m ρ c (Proc.devRef .tc main_v46_0) = (Cert.Spec.h1 (m ((c.tc : Thread nD τ).loc main_arg0)) (m ((c.tc : Thread nD τ).loc main_arg1)) (m ((c.tc : Thread nD τ).loc main_arg3)) (m ((c.tc : Thread nD τ).loc main_arg4))) := (s3_main_v46_0 (W7 m ρ c)).trans (k7_main_v46_0 m ρ h0 h1a c)
include h0 h1b in
theorem k8_main_v46_1 (c : Dev nD) : W8 m ρ c (Proc.devRef .tc main_v46_1) = (Cert.Spec.classify (Cert.Spec.h1 (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg7)) (Cert.Spec.row2 (m ((c.tc : Thread nD τ).loc main_arg8)))) := (s3_main_v46_1 (W7 m ρ c)).trans (k7_main_v46_1 m ρ h0 h1b c)
theorem k8_main_arg9 (c : Dev nD) : W8 m ρ c (Proc.devRef .tc main_arg9) = (m ((c.tc : Thread nD τ).loc main_arg9)) := (s3_main_arg9 (W7 m ρ c)).trans (k7_main_arg9 m ρ c)

include h0 h1a h1b h2 h3 in
/-- The result array after the run is the specification's function of the eleven arguments. -/
theorem result_eq (c : Dev nD) :
    W9 (F := Ideal) m ρ c (Proc.devRef .tc main_v64)
      = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (l9_v64 m ρ c).trans ((h3 (V8 m ρ) c).trans ?_)
  show Cert.Spec.final (W8 m ρ c (Proc.devRef .tc main_v60)) (W8 m ρ c (Proc.devRef .tc main_v62)) (W8 m ρ c (Proc.devRef .tc main_v46_0)) (W8 m ρ c (Proc.devRef .tc main_v61)) (W8 m ρ c (Proc.devRef .tc main_arg9)) (W8 m ρ c (Proc.devRef .tc main_v63)) (W8 m ρ c (Proc.devRef .tc main_v46_1)) = _
  rw [k8_main_v60 m ρ h0 h1a h2 c, k8_main_v62 m ρ c, k8_main_v46_0 m ρ h0 h1a c, k8_main_v61 m ρ c, k8_main_arg9 m ρ c, k8_main_v63 m ρ c, k8_main_v46_1 m ρ h0 h1b c]
  rfl

end Combine

end Cert.KernelIdeal.KVal

end
-- ==== Proof.Region0.lean ====
import proofs.«101168_j18287970746774_1_alg».proof.Proof.Gen.KernelIdeal.Frame
import proofs.«101168_j18287970746774_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

namespace Region0

/-! ## The body's product at an index

The body multiplies its two loaded blocks into a zero accumulator: at an index of the result block this is the sum
over the contracted coordinate of the left block's row times the right block's column. -/

/-- The left operand's row coordinate is the result's row. -/
theorem lhs_mm256_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- The left operand's column coordinate is the contracted coordinate. -/
theorem lhs_mm256_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- The right operand's row coordinate is the contracted coordinate. -/
theorem rhs_mm256_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- The right operand's column coordinate is the result's column. -/
theorem rhs_mm256_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The body's payload at an index of the block: the row of the left block against the column of the right block. -/
theorem pay_mm256_apply (x : Vec Ideal S5000x256 .f32) (w : Vec Ideal S256x128 .f32) (j : S5000x128.Idx) :
    k0_pay1 (F := Ideal) x w j = ∑ k : Fin 256, x (ix2 (j 0) k) * w (ix2 k (j 1)) := by
  unfold k0_pay1
  simp only [matmul]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx j ((ValueIdx.contrEquiv1 dot_S5000x256_S256x128_S5000x128_1_0_0_1_n_n 256 rfl rfl).symm k) = ix2 (j 0) k := funext fun a => Fin.ext (by
    match a with
    | ⟨0, _⟩ => exact lhs_mm256_0 _ _
    | ⟨1, _⟩ => exact (lhs_mm256_1 _ _).trans hk)
  have er : dot_S5000x256_S256x128_S5000x128_1_0_0_1_n_n.rhsIdx j ((ValueIdx.contrEquiv1 dot_S5000x256_S256x128_S5000x128_1_0_0_1_n_n 256 rfl rfl).symm k) = ix2 k (j 1) := funext fun a => Fin.ext (by
    match a with
    | ⟨0, _⟩ => exact (rhs_mm256_0 _ _).trans hk
    | ⟨1, _⟩ => exact rhs_mm256_1 _ _)
  rw [el, er]
  rfl

/-- The same with the two blocks read out of two arrays: where the left block's row `j 0` is the array's row `i 0` and the
    right block's column `j 1` the array's column `i 1`, the body's product at `j` is the arrays' product at `i`. -/
theorem pay_mm256_of_rows (X : FVec Ideal S100000x256 .f32) (W : FVec Ideal S256x128 .f32)
    (x : Vec Ideal S5000x256 .f32) (w : Vec Ideal S256x128 .f32) (j : S5000x128.Idx) (i : S100000x128.Idx)
    (hx : ∀ k : Fin 256, x (ix2 (j 0) k) = X (ix2 (i 0) k)) (hw : ∀ k : Fin 256, w (ix2 k (j 1)) = W (ix2 k (i 1))) :
    k0_pay1 (F := Ideal) x w j = Cert.Spec.mm256 X W i := by
  rw [pay_mm256_apply]
  unfold Cert.Spec.mm256
  exact Finset.sum_congr rfl fun k _ => by rw [hx k, hw k]

/-! ## From the blocks to the array

The grid's point `t` works on rows `5000·t … 5000·t + 4999`: the left operand's and the result's blocks are the
`t`-th bands of rows, the right operand's block is the whole matrix. -/

theorem hz0 : (![0, 0] : Fin 2 → Nat) = fun _ => 0 := funext fun a => by fin_cases a <;> rfl

/-- The printed index maps, decided over the grid: the row-tiled windows sit at block `t` of the rows and block `0` of
    the columns, the whole-matrix window at block `0` of both. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is band `t` of the product of the two input arrays as the region finds them. -/
theorem flushed_mm256 (c : Dev nD) (t : Fin cfg0.N) :
    (dat0 (F := Ideal) V c).flushed 2 t = ((cfg0.win 2).blk t).view.read (Elt Ideal) (Cert.Spec.mm256 (V c main_arg0) (V c main_arg3)) := by
  show (cfg0.win 2).cut (grid0.coords t) ((dat0 V c).after 2 t) = _
  rw [after0_2]
  unfold out0_2
  rw [View.canon_unit_zero hz0]
  simp only [View.ld_unit_zero (S := S5000x256) hz0, View.ld_unit_zero (S := S256x128) hz0]
  obtain ⟨e0, e1, e2, e3, e4, e5⟩ := idx_facts0 t
  funext j
  obtain ⟨i, hi⟩ : ∃ i : S100000x128.Idx, i = ((cfg0.win 2).blk t).view.emb j := ⟨_, rfl⟩
  have hi0 : (i 0).val = win0_2.index t (0 : Fin 2) * 5000 + 1 * (j 0).val := by rw [hi]; rfl
  have hi1 : (i 1).val = win0_2.index t (1 : Fin 2) * 128 + 1 * (j 1).val := by rw [hi]; rfl
  show k0_pay1 (iblk0 V c 0 t) (iblk0 V c 1 t) j = Cert.Spec.mm256 (V c main_arg0) (V c main_arg3) (((cfg0.win 2).blk t).view.emb j)
  rw [← hi]
  refine pay_mm256_of_rows (V c main_arg0) (V c main_arg3) _ _ j i (fun k => ?_) (fun k => ?_)
  · show V c main_arg0 (((cfg0.win 0).blk t).view.emb (ix2 (j 0) k)) = _
    refine congrArg _ (funext fun a => Fin.ext ?_)
    match a with
    | ⟨0, _⟩ => show win0_0.index t (0 : Fin 2) * 5000 + 1 * (j 0).val = (i 0).val; omega
    | ⟨1, _⟩ => show win0_0.index t (1 : Fin 2) * 256 + 1 * k.val = k.val; omega
  · show V c main_arg3 (((cfg0.win 1).blk t).view.emb (ix2 k (j 1))) = _
    refine congrArg _ (funext fun a => Fin.ext ?_)
    match a with
    | ⟨0, _⟩ => show win0_1.index t (0 : Fin 2) * 256 + 1 * k.val = k.val; omega
    | ⟨1, _⟩ => show win0_1.index t (1 : Fin 2) * 128 + 1 * (j 1).val = (i 1).val; omega

/-- An index of the array is in point `t`'s block iff each coordinate is in the block's range on its axis. -/
theorem mem_blk_mm256 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the array is in some point's block: row `r` is in band `r / 5000`. -/
theorem cover_mm256 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 5000 < cfg0.N := by show (i 0).val / 5000 < 20; omega
  obtain ⟨t, ht⟩ : ∃ t : Fin cfg0.N, t.val = (i 0).val / 5000 := ⟨⟨_, hN⟩, rfl⟩
  refine ⟨t, flush0_2 t, ?_⟩
  rw [mem_blk_mm256]
  obtain ⟨e0, e1, e2, e3, e4, e5⟩ := idx_facts0 t
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

end Region0

/-- The array after the region's twenty points is the product of the two input arrays. -/
theorem region0_out (c : Dev nD) :
    (dat0 (F := Ideal) V c).arrAt 2 cfg0.N = Cert.Spec.mm256 (V c main_arg0) (V c main_arg3) :=
  (dat0 (F := Ideal) V c).arrAt_eq_of_cover 2 (Cert.Spec.mm256 (V c main_arg0) (V c main_arg3))
    (fun t _ => Region0.flushed_mm256 V c t) Region0.cover_mm256

end Cert.KernelIdeal.RegionVal

end
-- ==== Proof.Region1.lean ====
import proofs.«101168_j18287970746774_1_alg».proof.Proof.Gen.KernelIdeal.Frame
import proofs.«101168_j18287970746774_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.SL.Sem Idealize.ShloMosaic.ValueIdx
open Idealize.ShloMosaic.Pipeline (Dat Cfg Window)

/-! ## The body's two stored values, read at an index -/

/-- A 1 × 128 row broadcast over 5000 rows reads the row at the column. -/
theorem rowBroadcast128_apply (b : FVec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => by
    match a with
    | ⟨0, _⟩ => rfl
    | ⟨1, _⟩ => rfl)

/-- A 1 × 2 row broadcast over 5000 rows reads the row at the column. -/
theorem rowBroadcast2_apply (b : FVec Ideal S1x2 .f32) (p : Fin 5000) (q : Fin 2) :
    broadcastTo S5000x2 b broadcasts_S1x2_S5000x2 (ix2 p q) = b (ix2 0 q) :=
  broadcastTo_apply b broadcasts_S1x2_S5000x2 (ix2 p q) (ix2 0 q) (fun a => by
    match a with
    | ⟨0, _⟩ => rfl
    | ⟨1, _⟩ => rfl)

/-- The first stored value at row p, column q: max (x[p, q] + b[0, q], 0). -/
theorem reluPay_apply (x : FVec Ideal S5000x128 .f32) (b : FVec Ideal S1x128 .f32) (p : Fin 5000) (q : Fin 128) :
    k1_pay1 (F := Ideal) x b (ix2 p q) = max (x (ix2 p q) + b (ix2 0 q)) Cert.Spec.zero := by
  unfold k1_pay1
  show max (shapeCast S5000x128 x shapeCasts_S5000x128_S5000x128 (ix2 p q)
      + broadcastTo S5000x128 (shapeCast S1x128 b shapeCasts_S1x128_S1x128) broadcasts_S1x128_S5000x128 (ix2 p q))
    (Ideal.ofBits .f32 0x00000000#32) = _
  rw [shapeCast_self, shapeCast_self, rowBroadcast128_apply]

/-! ## The matrix product's operand indices, axis by axis -/

theorem lhs_logits_0 (i : S5000x2.Idx) (q : dot_S5000x128_S128x2_S5000x2_1_0_0_1_n_n.contr.Idx) :
    (dot_S5000x128_S128x2_S5000x2_1_0_0_1_n_n.lhsIdx i q 0).val = (i 0).val := by
  unfold DotDims.lhsIdx
  rw [dif_neg (show ¬(0 : Fin S5000x128.rank) ∈ dot_S5000x128_S128x2_S5000x2_1_0_0_1_n_n.lhsBatch by decide), dif_pos (show (0 : Fin S5000x128.rank) ∈ dot_S5000x128_S128x2_S5000x2_1_0_0_1_n_n.lhsNonContracting by decide)]
  rfl
theorem lhs_logits_1 (i : S5000x2.Idx) (q : dot_S5000x128_S128x2_S5000x2_1_0_0_1_n_n.contr.Idx) :
    (dot_S5000x128_S128x2_S5000x2_1_0_0_1_n_n.lhsIdx i q 1).val = (q ⟨0, by decide⟩).val :=
  dot_S5000x128_S128x2_S5000x2_1_0_0_1_n_n.lhsIdx_val_of_single rfl i q
theorem rhs_logits_0 (i : S5000x2.Idx) (q : dot_S5000x128_S128x2_S5000x2_1_0_0_1_n_n.contr.Idx) :
    (dot_S5000x128_S128x2_S5000x2_1_0_0_1_n_n.rhsIdx i q 0).val = (q ⟨0, by decide⟩).val :=
  dot_S5000x128_S128x2_S5000x2_1_0_0_1_n_n.rhsIdx_val_of_single rfl i q
theorem rhs_logits_1 (i : S5000x2.Idx) (q : dot_S5000x128_S128x2_S5000x2_1_0_0_1_n_n.contr.Idx) :
    (dot_S5000x128_S128x2_S5000x2_1_0_0_1_n_n.rhsIdx i q 1).val = (i 1).val := by
  unfold DotDims.rhsIdx
  rw [dif_neg (show ¬(1 : Fin S128x2.rank) ∈ dot_S5000x128_S128x2_S5000x2_1_0_0_1_n_n.rhsBatch by decide), dif_pos (show (1 : Fin S128x2.rank) ∈ dot_S5000x128_S128x2_S5000x2_1_0_0_1_n_n.rhsNonContracting by decide)]
  rfl

/-- A [5000, 128] by [128, 2] product into the zero accumulator, at row p and column q: the sum over the
    contracted coordinate of the operands' products. -/
theorem product_apply (h : FVec Ideal S5000x128 .f32) (w : FVec Ideal S128x2 .f32) (p : Fin 5000) (q : Fin 2) :
    FloatOps.matmul dot_S5000x128_S128x2_S5000x2_1_0_0_1_n_n none h w (constant (F := Ideal) S5000x2 .f32 0x00000000#32) (ix2 p q)
      = ∑ k : Fin 128, h (ix2 p k) * w (ix2 k q) := by
  rw [Ideal.matmul_constant_zero_apply, ← Equiv.sum_comp (ValueIdx.contrEquiv1 dot_S5000x128_S128x2_S5000x2_1_0_0_1_n_n 128 rfl rfl).symm]
  refine Finset.sum_congr rfl fun k _ => ?_
  have hk := ValueIdx.contrEquiv1_symm_val dot_S5000x128_S128x2_S5000x2_1_0_0_1_n_n 128 rfl rfl k
  have el : dot_S5000x128_S128x2_S5000x2_1_0_0_1_n_n.lhsIdx (ix2 p q) ((ValueIdx.contrEquiv1 dot_S5000x128_S128x2_S5000x2_1_0_0_1_n_n 128 rfl rfl).symm k) = ix2 p k := funext fun a => Fin.ext (by
    match a with
    | ⟨0, _⟩ => exact lhs_logits_0 _ _
    | ⟨1, _⟩ => exact (lhs_logits_1 _ _).trans hk)
  have er : dot_S5000x128_S128x2_S5000x2_1_0_0_1_n_n.rhsIdx (ix2 p q) ((ValueIdx.contrEquiv1 dot_S5000x128_S128x2_S5000x2_1_0_0_1_n_n 128 rfl rfl).symm k) = ix2 k q := funext fun a => Fin.ext (by
    match a with
    | ⟨0, _⟩ => exact (rhs_logits_0 _ _).trans hk
    | ⟨1, _⟩ => exact rhs_logits_1 _ _)
  rw [el, er]

/-- The second stored value at row p, column q: the sum over k of max (x[p, k] + b[0, k], 0) · w[k, q], plus bc[0, q]. -/
theorem logitsPay_apply (x : FVec Ideal S5000x128 .f32) (b : FVec Ideal S1x128 .f32) (w : FVec Ideal S128x2 .f32)
    (bc : FVec Ideal S1x2 .f32) (p : Fin 5000) (q : Fin 2) :
    k1_pay2 (F := Ideal) x b w bc (ix2 p q)
      = (∑ k : Fin 128, max (x (ix2 p k) + b (ix2 0 k)) Cert.Spec.zero * w (ix2 k q)) + bc (ix2 0 q) := by
  unfold k1_pay2
  show FloatOps.matmul dot_S5000x128_S128x2_S5000x2_1_0_0_1_n_n none (k1_pay1 (F := Ideal) x b) w (constant (F := Ideal) S5000x2 .f32 0x00000000#32) (ix2 p q)
      + broadcastTo S5000x2 (shapeCast S1x2 bc shapeCasts_S1x2_S1x2) broadcasts_S1x2_S5000x2 (ix2 p q) = _
  rw [shapeCast_self, rowBroadcast2_apply, product_apply]
  refine congrArg (· + bc (ix2 0 q)) (Finset.sum_congr rfl fun k _ => ?_)
  rw [reluPay_apply]

/-! ## From the blocks to the arrays -/

theorem zeroOffsets : (![0, 0] : Fin 2 → Nat) = fun _ => 0 := funext fun a => by fin_cases a <;> rfl

/-- The block index maps over the grid: the row-tiled windows (the aggregate in, the two results out) are at block t
    on the rows and block 0 on the columns; the bias rows and the weight matrix are whole, block 0 on both axes. -/
theorem blockIndex : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- What point t writes back to the first result is block t of max (agg + b1, 0). -/
theorem h1_flushed (c : Dev nD) (t : Fin cfg1.N) :
    (dat1 (F := Ideal) V c).flushed 4 t
      = ((cfg1.win 4).blk t).view.read (Elt Ideal) (Cert.Spec.reluBias (V c main_v43) (V c main_v44)) := by
  show (cfg1.win 4).cut (grid1.coords t) ((dat1 V c).after 4 t) = _
  rw [after1_4]
  unfold out1_4
  rw [View.canon_unit_zero zeroOffsets]
  simp only [View.ld_unit_zero (S := S5000x128) zeroOffsets, View.ld_unit_zero (S := S1x128) zeroOffsets]
  obtain ⟨e00, e01, e10, e11, -, -, -, -, e40, e41, -, -⟩ := blockIndex t
  funext j
  obtain ⟨p, q, rfl⟩ : ∃ (p : Fin 5000) (q : Fin 128), j = ix2 p q := ⟨j 0, j 1, eq_ix2 j⟩
  refine (reluPay_apply _ _ p q).trans ?_
  have h0 : ((cfg1.win 0).blk t).view.emb (ix2 p q) = ((cfg1.win 4).blk t).view.emb (ix2 p q) := by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * q.val = win1_4.index t (1 : Fin 2) * 128 + 1 * q.val; omega
  have h1 : ((cfg1.win 1).blk t).view.emb (ix2 0 q) = ix2 0 ((((cfg1.win 4).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_4.index t (1 : Fin 2) * 128 + 1 * q.val; omega
  have key : ∀ (A : FVec Ideal S100000x128 .f32) (B : FVec Ideal S1x128 .f32),
      max (A (((cfg1.win 0).blk t).view.emb (ix2 p q)) + B (((cfg1.win 1).blk t).view.emb (ix2 0 q))) Cert.Spec.zero
        = Cert.Spec.reluBias A B (((cfg1.win 4).blk t).view.emb (ix2 p q)) := by
    intro A B
    rw [h0, h1]
    rfl
  exact key (V c main_v43) (V c main_v44)

/-- What point t writes back to the second result is block t of h1 · Wc + bc. -/
theorem logits_flushed (c : Dev nD) (t : Fin cfg1.N) :
    (dat1 (F := Ideal) V c).flushed 5 t
      = ((cfg1.win 5).blk t).view.read (Elt Ideal)
          (Cert.Spec.classify (Cert.Spec.reluBias (V c main_v43) (V c main_v44)) (V c main_arg7) (V c main_v45)) := by
  show (cfg1.win 5).cut (grid1.coords t) ((dat1 V c).after 5 t) = _
  rw [after1_5]
  unfold out1_5
  rw [View.canon_unit_zero zeroOffsets]
  simp only [View.ld_unit_zero (S := S5000x128) zeroOffsets, View.ld_unit_zero (S := S1x128) zeroOffsets,
    View.ld_unit_zero (S := S128x2) zeroOffsets, View.ld_unit_zero (S := S1x2) zeroOffsets]
  obtain ⟨e00, e01, e10, e11, e20, e21, e30, e31, -, -, e50, e51⟩ := blockIndex t
  funext j
  obtain ⟨p, q, rfl⟩ : ∃ (p : Fin 5000) (q : Fin 2), j = ix2 p q := ⟨j 0, j 1, eq_ix2 j⟩
  refine (logitsPay_apply _ _ _ _ p q).trans ?_
  have h0 : ∀ k : Fin 128, ((cfg1.win 0).blk t).view.emb (ix2 p k) = ix2 ((((cfg1.win 5).blk t).view.emb (ix2 p q)) 0) k := by
    intro k; funext a; apply Fin.ext
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  have h1 : ∀ k : Fin 128, ((cfg1.win 1).blk t).view.emb (ix2 0 k) = ix2 0 k := by
    intro k; funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : ∀ k : Fin 128, ((cfg1.win 2).blk t).view.emb (ix2 k q) = ix2 k ((((cfg1.win 5).blk t).view.emb (ix2 p q)) 1) := by
    intro k; funext a; apply Fin.ext
    match a with
    | ⟨0, _⟩ => show win1_2.index t (0 : Fin 2) * 128 + 1 * k.val = k.val; omega
    | ⟨1, _⟩ => show win1_2.index t (1 : Fin 2) * 2 + 1 * q.val = win1_5.index t (1 : Fin 2) * 2 + 1 * q.val; omega
  have h3 : ((cfg1.win 3).blk t).view.emb (ix2 0 q) = ix2 0 ((((cfg1.win 5).blk t).view.emb (ix2 p q)) 1) := by
    funext a; apply Fin.ext
    match a with
    | ⟨0, _⟩ => show win1_3.index t (0 : Fin 2) * 1 + 1 * 0 = 0; omega
    | ⟨1, _⟩ => show win1_3.index t (1 : Fin 2) * 2 + 1 * q.val = win1_5.index t (1 : Fin 2) * 2 + 1 * q.val; omega
  have key : ∀ (A : FVec Ideal S100000x128 .f32) (B : FVec Ideal S1x128 .f32) (W : FVec Ideal S128x2 .f32) (Bc : FVec Ideal S1x2 .f32),
      (∑ k : Fin 128, max (A (((cfg1.win 0).blk t).view.emb (ix2 p k)) + B (((cfg1.win 1).blk t).view.emb (ix2 0 k))) Cert.Spec.zero
          * W (((cfg1.win 2).blk t).view.emb (ix2 k q))) + Bc (((cfg1.win 3).blk t).view.emb (ix2 0 q))
        = Cert.Spec.classify (Cert.Spec.reluBias A B) W Bc (((cfg1.win 5).blk t).view.emb (ix2 p q)) := by
    intro A B W Bc
    rw [h3]
    refine congrArg (· + Bc (ix2 0 ((((cfg1.win 5).blk t).view.emb (ix2 p q)) 1))) (Finset.sum_congr rfl fun k _ => ?_)
    rw [h0 k, h1 k, h2 k]
    rfl
  exact key (V c main_v43) (V c main_v44) (V c main_arg7) (V c main_v45)

/-- An index of the first result is in point t's block iff each coordinate is in the block's range on its axis. -/
theorem h1_mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v46_0).slice (win1_4.rect t)).set ↔ _
  rw [View.set_slice_whole, Rect.mem_set_unit]
  exact Iff.rfl

/-- The same for the second result. -/
theorem logits_mem_blk (t : Fin cfg1.N) (i : S100000x2.Idx) :
    i ∈ ((cfg1.win 5).blk t).view.set ↔ ∀ a : Fin 2, win1_5.index t a * S5000x2.size a ≤ (i a).val ∧ (i a).val < win1_5.index t a * S5000x2.size a + S5000x2.size a := by
  show i ∈ ((View.whole main_v46_1).slice (win1_5.rect t)).set ↔ _
  rw [View.set_slice_whole, Rect.mem_set_unit]
  exact Iff.rfl

/-- Every index of the first result is in the block of the point r / 5000, r its row. -/
theorem h1_cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hlt : (i 0).val / 5000 < grid1.N := by rw [N_1]; omega
  obtain ⟨-, -, -, -, -, -, -, -, e40, e41, -, -⟩ := blockIndex ⟨(i 0).val / 5000, hlt⟩
  have e40' : win1_4.index ⟨(i 0).val / 5000, hlt⟩ (0 : Fin 2) = (i 0).val / 5000 := e40
  refine ⟨⟨(i 0).val / 5000, hlt⟩, flush1_4 _, ?_⟩
  rw [h1_mem_blk]
  intro a
  match a with
  | ⟨0, _⟩ => show win1_4.index ⟨(i 0).val / 5000, hlt⟩ (0 : Fin 2) * 5000 ≤ (i 0).val ∧ (i 0).val < win1_4.index ⟨(i 0).val / 5000, hlt⟩ (0 : Fin 2) * 5000 + 5000; omega
  | ⟨1, _⟩ => show win1_4.index ⟨(i 0).val / 5000, hlt⟩ (1 : Fin 2) * 128 ≤ (i 1).val ∧ (i 1).val < win1_4.index ⟨(i 0).val / 5000, hlt⟩ (1 : Fin 2) * 128 + 128; omega

/-- Every index of the second result is in the block of the point r / 5000, r its row. -/
theorem logits_cover (i : S100000x2.Idx) :
    ∃ t : Fin cfg1.N, (cfg1.win 5).flush t = true ∧ i ∈ ((cfg1.win 5).blk t).view.set := by
  have hi0 : (i 0).val < 100000 := (i 0).isLt
  have hi1 : (i 1).val < 2 := (i 1).isLt
  have hlt : (i 0).val / 5000 < grid1.N := by rw [N_1]; omega
  obtain ⟨-, -, -, -, -, -, -, -, -, -, e50, e51⟩ := blockIndex ⟨(i 0).val / 5000, hlt⟩
  have e50' : win1_5.index ⟨(i 0).val / 5000, hlt⟩ (0 : Fin 2) = (i 0).val / 5000 := e50
  refine ⟨⟨(i 0).val / 5000, hlt⟩, flush1_5 _, ?_⟩
  rw [logits_mem_blk]
  intro a
  match a with
  | ⟨0, _⟩ => show win1_5.index ⟨(i 0).val / 5000, hlt⟩ (0 : Fin 2) * 5000 ≤ (i 0).val ∧ (i 0).val < win1_5.index ⟨(i 0).val / 5000, hlt⟩ (0 : Fin 2) * 5000 + 5000; omega
  | ⟨1, _⟩ => show win1_5.index ⟨(i 0).val / 5000, hlt⟩ (1 : Fin 2) * 2 ≤ (i 1).val ∧ (i 1).val < win1_5.index ⟨(i 0).val / 5000, hlt⟩ (1 : Fin 2) * 2 + 2; omega

/-- The first result after the region's twenty points: max (agg + b1, 0) of the arrays as the region finds them. -/
theorem region1_h1 (c : Dev nD) :
    (dat1 (F := Ideal) V c).arrAt 4 cfg1.N = Cert.Spec.reluBias (V c main_v43) (V c main_v44) :=
  (dat1 (F := Ideal) V c).arrAt_eq_of_cover 4 (Cert.Spec.reluBias (V c main_v43) (V c main_v44))
    (fun t _ => h1_flushed V c t) h1_cover

/-- The second result after the region's twenty points: h1 · Wc + bc of the arrays as the region finds them. -/
theorem region1_logits (c : Dev nD) :
    (dat1 (F := Ideal) V c).arrAt 5 cfg1.N
      = Cert.Spec.classify (Cert.Spec.reluBias (V c main_v43) (V c main_v44)) (V c main_arg7) (V c main_v45) :=
  (dat1 (F := Ideal) V c).arrAt_eq_of_cover 5
    (Cert.Spec.classify (Cert.Spec.reluBias (V c main_v43) (V c main_v44)) (V c main_arg7) (V c main_v45))
    (fun t _ => logits_flushed V c t) logits_cover

end Cert.KernelIdeal.RegionVal

end
-- ==== Proof.Region2.lean ====
import proofs.«101168_j18287970746774_1_alg».proof.Proof.Gen.KernelIdeal.Frame
import proofs.«101168_j18287970746774_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

namespace Region2

/-! ## The body's product at an index

The body multiplies its two loaded blocks into a zero accumulator, the left one through a reshaping to its own shape: at
an index of the result block this is the sum over the contracted coordinate of the left block's row times the right
block's column. -/

/-- The left operand's row coordinate is the result's row. -/
theorem lhs_mm128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contracted coordinate. -/
theorem lhs_mm128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contracted coordinate. -/
theorem rhs_mm128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the result's column. -/
theorem rhs_mm128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's payload at an index of the block: the row of the left block against the column of the right block. -/
theorem pay_mm128_apply (x : Vec Ideal S5000x128 .f32) (w : Vec Ideal S128x128 .f32) (j : S5000x128.Idx) :
    k2_pay1 (F := Ideal) x w j = ∑ k : Fin 128, x (ix2 (j 0) k) * w (ix2 k (j 1)) := by
  unfold k2_pay1
  simp only [matmul, shapeCast_self]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = ix2 (j 0) k := funext fun a => Fin.ext (by
    match a with
    | ⟨0, _⟩ => exact lhs_mm128_0 _ _
    | ⟨1, _⟩ => exact (lhs_mm128_1 _ _).trans hk)
  have er : dot_S5000x128_S128x128_S5000x128_1_0_0_1_n_n.rhsIdx j ((ValueIdx.contrEquiv1 dot_S5000x128_S128x128_S5000x128_1_0_0_1_n_n 128 rfl rfl).symm k) = ix2 k (j 1) := funext fun a => Fin.ext (by
    match a with
    | ⟨0, _⟩ => exact (rhs_mm128_0 _ _).trans hk
    | ⟨1, _⟩ => exact rhs_mm128_1 _ _)
  rw [el, er]
  rfl

/-- The same with the two blocks read out of two arrays: where the left block's row `j 0` is the array's row `i 0` and the
    right block's column `j 1` the array's column `i 1`, the body's product at `j` is the arrays' product at `i`. -/
theorem pay_mm128_of_rows (X : FVec Ideal S100000x128 .f32) (W : FVec Ideal S128x128 .f32)
    (x : Vec Ideal S5000x128 .f32) (w : Vec Ideal S128x128 .f32) (j : S5000x128.Idx) (i : S100000x128.Idx)
    (hx : ∀ k : Fin 128, x (ix2 (j 0) k) = X (ix2 (i 0) k)) (hw : ∀ k : Fin 128, w (ix2 k (j 1)) = W (ix2 k (i 1))) :
    k2_pay1 (F := Ideal) x w j = Cert.Spec.mm128 X W i := by
  rw [pay_mm128_apply]
  unfold Cert.Spec.mm128
  exact Finset.sum_congr rfl fun k _ => by rw [hx k, hw k]

/-! ## From the blocks to the array

The grid's point `t` works on rows `5000·t … 5000·t + 4999`: the left operand's and the result's blocks are the
`t`-th bands of rows, the right operand's block is the whole matrix. -/

theorem hz2 : (![0, 0] : Fin 2 → Nat) = fun _ => 0 := funext fun a => by fin_cases a <;> rfl

/-- The printed index maps, decided over the grid: the row-tiled windows sit at block `t` of the rows and block `0` of
    the columns, the whole-matrix window at block `0` of both. -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point `t` writes back is band `t` of the product of the two input arrays as the region finds them. -/
theorem flushed_mm128 (c : Dev nD) (t : Fin cfg2.N) :
    (dat2 (F := Ideal) V c).flushed 2 t = ((cfg2.win 2).blk t).view.read (Elt Ideal) (Cert.Spec.mm128 (V c main_v46_0) (V c main_arg5)) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S128x128) hz2]
  obtain ⟨e0, e1, e2, e3, e4, e5⟩ := idx_facts2 t
  funext j
  obtain ⟨i, hi⟩ : ∃ i : S100000x128.Idx, i = ((cfg2.win 2).blk t).view.emb j := ⟨_, rfl⟩
  have hi0 : (i 0).val = win2_2.index t (0 : Fin 2) * 5000 + 1 * (j 0).val := by rw [hi]; rfl
  have hi1 : (i 1).val = win2_2.index t (1 : Fin 2) * 128 + 1 * (j 1).val := by rw [hi]; rfl
  show k2_pay1 (iblk2 V c 0 t) (iblk2 V c 1 t) j = Cert.Spec.mm128 (V c main_v46_0) (V c main_arg5) (((cfg2.win 2).blk t).view.emb j)
  rw [← hi]
  refine pay_mm128_of_rows (V c main_v46_0) (V c main_arg5) _ _ j i (fun k => ?_) (fun k => ?_)
  · show V c main_v46_0 (((cfg2.win 0).blk t).view.emb (ix2 (j 0) k)) = _
    refine congrArg _ (funext fun a => Fin.ext ?_)
    match a with
    | ⟨0, _⟩ => show win2_0.index t (0 : Fin 2) * 5000 + 1 * (j 0).val = (i 0).val; omega
    | ⟨1, _⟩ => show win2_0.index t (1 : Fin 2) * 128 + 1 * k.val = k.val; omega
  · show V c main_arg5 (((cfg2.win 1).blk t).view.emb (ix2 k (j 1))) = _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * (j 1).val = (i 1).val; omega

/-- An index of the array is in point `t`'s block iff each coordinate is in the block's range on its axis. -/
theorem mem_blk_mm128 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v47).slice (win2_2.rect t)).set ↔ _
  rw [View.set_slice_whole, Rect.mem_set_unit]
  exact Iff.rfl

/-- Every index of the array is in some point's block: row `r` is in band `r / 5000`. -/
theorem cover_mm128 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : (i 0).val / 5000 < cfg2.N := by show (i 0).val / 5000 < 20; omega
  obtain ⟨t, ht⟩ : ∃ t : Fin cfg2.N, t.val = (i 0).val / 5000 := ⟨⟨_, hN⟩, rfl⟩
  refine ⟨t, flush2_2 t, ?_⟩
  rw [mem_blk_mm128]
  obtain ⟨e0, e1, e2, e3, e4, e5⟩ := idx_facts2 t
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

end Region2

/-- The array after the region's twenty points is the product of the two input arrays. -/
theorem region2_out (c : Dev nD) :
    (dat2 (F := Ideal) V c).arrAt 2 cfg2.N = Cert.Spec.mm128 (V c main_v46_0) (V c main_arg5) :=
  (dat2 (F := Ideal) V c).arrAt_eq_of_cover 2 (Cert.Spec.mm128 (V c main_v46_0) (V c main_arg5))
    (fun t _ => Region2.flushed_mm128 V c t) Region2.cover_mm128

end Cert.KernelIdeal.RegionVal

end
-- ==== Proof.Region3.lean ====
import proofs.«101168_j18287970746774_1_alg».proof.Proof.Gen.KernelIdeal.Frame
import proofs.«101168_j18287970746774_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

namespace Region3

/-! ## The body's value at an index -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The blend the body multiplies by `Wf`: `α · max (A2 + b2, 0) + (1 − α) · H1`, on one block of 5000 rows. -/
def blend (a2 : FVec Ideal S5000x128 .f32) (b2 : FVec Ideal S1x128 .f32) (al : FVec Ideal S5000x1 .f32)
    (h1 : FVec Ideal S5000x128 .f32) : FVec Ideal S5000x128 .f32 :=
  addf (mulf (broadcastTo S5000x128 (shapeCast S5000x1 al shapeCasts_S5000x1_S5000x1) broadcasts_S5000x1_S5000x128)
      (maximumf (addf (shapeCast S5000x128 a2 shapeCasts_S5000x128_S5000x128)
          (broadcastTo S5000x128 (shapeCast S1x128 b2 shapeCasts_S1x128_S1x128) broadcasts_S1x128_S5000x128))
        (broadcast S5000x128 (Ideal.ofBits .f32 0x00000000#32))))
    (mulf (broadcastTo S5000x128 (subf (broadcast S5000x1 (Ideal.ofBits .f32 0x3F800000#32)) (shapeCast S5000x1 al shapeCasts_S5000x1_S5000x1)) broadcasts_S5000x1_S5000x128)
      (shapeCast S5000x128 h1 shapeCasts_S5000x128_S5000x128))

/-- The blend at row `p`, column `k`. -/
theorem blend_apply (a2 : FVec Ideal S5000x128 .f32) (b2 : FVec Ideal S1x128 .f32) (al : FVec Ideal S5000x1 .f32)
    (h1 : FVec Ideal S5000x128 .f32) (p : Fin 5000) (k : Fin 128) :
    blend a2 b2 al h1 (ix2 p k)
      = al (ix2 p (0 : Fin 1)) * max (a2 (ix2 p k) + b2 (ix2 (0 : Fin 1) k)) (Ideal.ofBits .f32 0x00000000#32)
        + (Ideal.ofBits .f32 0x3F800000#32 - al (ix2 p (0 : Fin 1))) * h1 (ix2 p k) := by
  unfold blend
  rw [shapeCast_self, shapeCast_self, shapeCast_self, shapeCast_self]
  rw [addf_apply, mulf_apply, mulf_apply, maximumf_apply, addf_apply, broadcast_apply]
  rw [broadcastTo_a1_ab_apply, broadcastTo_a1_ab_apply, broadcastTo_1b_ab_apply, subf_apply, broadcast_apply]

/-! ### The product with `Wf`: a contraction over the 128 columns -/

theorem lhs_prod_0 (i : S5000x2.Idx) (q : dot_S5000x128_S128x2_S5000x2_1_0_0_1_n_n.contr.Idx) :
    (dot_S5000x128_S128x2_S5000x2_1_0_0_1_n_n.lhsIdx i q 0).val = (i 0).val := by
  unfold DotDims.lhsIdx
  rw [dif_neg (show ¬(0 : Fin S5000x128.rank) ∈ dot_S5000x128_S128x2_S5000x2_1_0_0_1_n_n.lhsBatch by decide), dif_pos (show (0 : Fin S5000x128.rank) ∈ dot_S5000x128_S128x2_S5000x2_1_0_0_1_n_n.lhsNonContracting by decide)]
  rfl
theorem lhs_prod_1 (i : S5000x2.Idx) (q : dot_S5000x128_S128x2_S5000x2_1_0_0_1_n_n.contr.Idx) :
    (dot_S5000x128_S128x2_S5000x2_1_0_0_1_n_n.lhsIdx i q 1).val = (q ⟨0, by decide⟩).val :=
  dot_S5000x128_S128x2_S5000x2_1_0_0_1_n_n.lhsIdx_val_of_single rfl i q
theorem rhs_prod_0 (i : S5000x2.Idx) (q : dot_S5000x128_S128x2_S5000x2_1_0_0_1_n_n.contr.Idx) :
    (dot_S5000x128_S128x2_S5000x2_1_0_0_1_n_n.rhsIdx i q 0).val = (q ⟨0, by decide⟩).val :=
  dot_S5000x128_S128x2_S5000x2_1_0_0_1_n_n.rhsIdx_val_of_single rfl i q
theorem rhs_prod_1 (i : S5000x2.Idx) (q : dot_S5000x128_S128x2_S5000x2_1_0_0_1_n_n.contr.Idx) :
    (dot_S5000x128_S128x2_S5000x2_1_0_0_1_n_n.rhsIdx i q 1).val = (i 1).val := by
  unfold DotDims.rhsIdx
  rw [dif_neg (show ¬(1 : Fin S128x2.rank) ∈ dot_S5000x128_S128x2_S5000x2_1_0_0_1_n_n.rhsBatch by decide), dif_pos (show (1 : Fin S128x2.rank) ∈ dot_S5000x128_S128x2_S5000x2_1_0_0_1_n_n.rhsNonContracting by decide)]
  rfl

/-- The block product into the zero accumulator, at row `p` and column `q`: the sum over the contracted column. -/
theorem prod_apply (x : FVec Ideal S5000x128 .f32) (w : FVec Ideal S128x2 .f32) (p : Fin 5000) (q : Fin 2) :
    FloatOps.matmul dot_S5000x128_S128x2_S5000x2_1_0_0_1_n_n none x w (constant (F := Ideal) S5000x2 .f32 0x00000000#32) (ix2 p q)
      = ∑ k : Fin 128, x (ix2 p k) * w (ix2 k q) := by
  rw [Ideal.matmul_constant_zero_apply, ← Equiv.sum_comp (ValueIdx.contrEquiv1 dot_S5000x128_S128x2_S5000x2_1_0_0_1_n_n 128 rfl rfl).symm]
  refine Finset.sum_congr rfl fun k _ => ?_
  have hk := ValueIdx.contrEquiv1_symm_val dot_S5000x128_S128x2_S5000x2_1_0_0_1_n_n 128 rfl rfl k
  have el : dot_S5000x128_S128x2_S5000x2_1_0_0_1_n_n.lhsIdx (ix2 p q) ((ValueIdx.contrEquiv1 dot_S5000x128_S128x2_S5000x2_1_0_0_1_n_n 128 rfl rfl).symm k) = ix2 p k := funext fun a => Fin.ext (by
    match a with
    | ⟨0, _⟩ => exact lhs_prod_0 _ _
    | ⟨1, _⟩ => exact (lhs_prod_1 _ _).trans hk)
  have er : dot_S5000x128_S128x2_S5000x2_1_0_0_1_n_n.rhsIdx (ix2 p q) ((ValueIdx.contrEquiv1 dot_S5000x128_S128x2_S5000x2_1_0_0_1_n_n 128 rfl rfl).symm k) = ix2 k q := funext fun a => Fin.ext (by
    match a with
    | ⟨0, _⟩ => exact (rhs_prod_0 _ _).trans hk
    | ⟨1, _⟩ => exact rhs_prod_1 _ _)
  rw [el, er]

/-- The body's stored value, at row `p` and column `q` of the block. -/
theorem pay_apply (a2 : FVec Ideal S5000x128 .f32) (b2 : FVec Ideal S1x128 .f32) (al : FVec Ideal S5000x1 .f32)
    (h1 : FVec Ideal S5000x128 .f32) (wf : FVec Ideal S128x2 .f32) (bf : FVec Ideal S1x2 .f32) (lc : FVec Ideal S5000x2 .f32)
    (p : Fin 5000) (q : Fin 2) :
    k3_pay1 (F := Ideal) a2 b2 al h1 wf bf lc (ix2 p q)
      = Ideal.ofBits .f32 0x3F000000#32 * lc (ix2 p q) + Ideal.ofBits .f32 0x3F000000#32 * ((∑ k : Fin 128,
          (al (ix2 p (0 : Fin 1)) * max (a2 (ix2 p k) + b2 (ix2 (0 : Fin 1) k)) (Ideal.ofBits .f32 0x00000000#32)
            + (Ideal.ofBits .f32 0x3F800000#32 - al (ix2 p (0 : Fin 1))) * h1 (ix2 p k)) * wf (ix2 k q))
        + bf (ix2 (0 : Fin 1) q)) := by
  show (addf (mulf (broadcast S5000x2 (Ideal.ofBits .f32 0x3F000000#32)) (shapeCast S5000x2 lc shapeCasts_S5000x2_S5000x2))
      (mulf (broadcast S5000x2 (Ideal.ofBits .f32 0x3F000000#32))
        (addf (FloatOps.matmul dot_S5000x128_S128x2_S5000x2_1_0_0_1_n_n none (blend a2 b2 al h1) wf (constant (F := Ideal) S5000x2 .f32 0x00000000#32))
          (broadcastTo S5000x2 (shapeCast S1x2 bf shapeCasts_S1x2_S1x2) broadcasts_S1x2_S5000x2)))) (ix2 p q) = _
  rw [shapeCast_self, shapeCast_self]
  rw [addf_apply, mulf_apply, mulf_apply, addf_apply, broadcast_apply, prod_apply, broadcastTo_1b_ab_apply]
  simp only [blend_apply]

/-! ## From the blocks to the array -/

theorem hz : (![0, 0] : Fin 2 → Nat) = fun _ => 0 := funext fun a => by fin_cases a <;> rfl

/-- The windows' index maps over the 20 grid points: a row-tiled window's block index is the point on axis 0 and 0 on
    axis 1; a window holding its whole array stays at block 0 on both axes. -/
theorem idx_facts : ∀ t : Fin cfg3.N, t.val ≤ 19
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0
    ∧ win3_7.index t (0 : Fin 2) = t.val ∧ win3_7.index t (1 : Fin 2) = 0 :=
  (by decide +kernel : ∀ t : Fin grid3.N, _)

/-- Every block of 5000 rows of the result is some point's. -/
theorem idx_onto : ∀ q : Fin 20, ∃ t : Fin cfg3.N, win3_7.index t = ![q.val, 0] :=
  (by decide +kernel : ∀ q : Fin 20, ∃ t : Fin grid3.N, win3_7.index t = ![q.val, 0])

/-- The row of the arrays that row `p` of point `t`'s blocks is: `5000 · t + p`. -/
def row (t : Fin cfg3.N) (p : Fin 5000) : Fin 100000 :=
  ⟨t.val * 5000 + p.val, by have := (idx_facts t).1; have := p.isLt; omega⟩

theorem row_val (t : Fin cfg3.N) (p : Fin 5000) : (row t p).val = t.val * 5000 + p.val := rfl

/-! ### Each input block, read where the arrays hold it -/

theorem blk_A2 (c : Dev nD) (t : Fin cfg3.N) (p : Fin 5000) (k : Fin 128) :
    iblk3 V c 0 t (ix2 p k) = V c main_v60 (ix2 (row t p) k) := by
  obtain ⟨ht, a00, a01, -⟩ := idx_facts t
  show V c main_v60 (((cfg3.win 0).blk t).view.emb (ix2 p k)) = _
  refine congrArg (V c main_v60) (funext fun a => Fin.ext ?_)
  match a with
  | ⟨0, _⟩ => show win3_0.index t (0 : Fin 2) * 5000 + 1 * p.val = t.val * 5000 + p.val; omega
  | ⟨1, _⟩ => show win3_0.index t (1 : Fin 2) * 128 + 1 * k.val = k.val; omega

theorem blk_b2 (c : Dev nD) (t : Fin cfg3.N) (k : Fin 128) :
    iblk3 V c 1 t (ix2 (0 : Fin 1) k) = V c main_v62 (ix2 (0 : Fin 1) k) := by
  obtain ⟨ht, -, -, a10, a11, -⟩ := idx_facts t
  show V c main_v62 (((cfg3.win 1).blk t).view.emb (ix2 (0 : Fin 1) k)) = _
  refine congrArg (V c main_v62) (funext fun a => Fin.ext ?_)
  match a with
  | ⟨0, _⟩ => show win3_1.index t (0 : Fin 2) * 1 + 1 * 0 = 0; omega
  | ⟨1, _⟩ => show win3_1.index t (1 : Fin 2) * 128 + 1 * k.val = k.val; omega

theorem blk_H1 (c : Dev nD) (t : Fin cfg3.N) (p : Fin 5000) (k : Fin 128) :
    iblk3 V c 2 t (ix2 p k) = V c main_v46_0 (ix2 (row t p) k) := by
  obtain ⟨ht, -, -, -, -, a20, a21, -⟩ := idx_facts t
  show V c main_v46_0 (((cfg3.win 2).blk t).view.emb (ix2 p k)) = _
  refine congrArg (V c main_v46_0) (funext fun a => Fin.ext ?_)
  match a with
  | ⟨0, _⟩ => show win3_2.index t (0 : Fin 2) * 5000 + 1 * p.val = t.val * 5000 + p.val; omega
  | ⟨1, _⟩ => show win3_2.index t (1 : Fin 2) * 128 + 1 * k.val = k.val; omega

theorem blk_alpha (c : Dev nD) (t : Fin cfg3.N) (p : Fin 5000) :
    iblk3 V c 3 t (ix2 p (0 : Fin 1)) = V c main_v61 (ix2 (row t p) (0 : Fin 1)) := by
  obtain ⟨ht, -, -, -, -, -, -, a30, a31, -⟩ := idx_facts t
  show V c main_v61 (((cfg3.win 3).blk t).view.emb (ix2 p (0 : Fin 1))) = _
  refine congrArg (V c main_v61) (funext fun a => Fin.ext ?_)
  match a with
  | ⟨0, _⟩ => show win3_3.index t (0 : Fin 2) * 5000 + 1 * p.val = t.val * 5000 + p.val; omega
  | ⟨1, _⟩ => show win3_3.index t (1 : Fin 2) * 1 + 1 * 0 = 0; omega

theorem blk_Wf (c : Dev nD) (t : Fin cfg3.N) (k : Fin 128) (q : Fin 2) :
    iblk3 V c 4 t (ix2 k q) = V c main_arg9 (ix2 k q) := by
  obtain ⟨ht, -, -, -, -, -, -, -, -, a40, a41, -⟩ := idx_facts t
  show V c main_arg9 (((cfg3.win 4).blk t).view.emb (ix2 k q)) = _
  refine congrArg (V c main_arg9) (funext fun a => Fin.ext ?_)
  match a with
  | ⟨0, _⟩ => show win3_4.index t (0 : Fin 2) * 128 + 1 * k.val = k.val; omega
  | ⟨1, _⟩ => show win3_4.index t (1 : Fin 2) * 2 + 1 * q.val = q.val; omega

theorem blk_bf (c : Dev nD) (t : Fin cfg3.N) (q : Fin 2) :
    iblk3 V c 5 t (ix2 (0 : Fin 1) q) = V c main_v63 (ix2 (0 : Fin 1) q) := by
  obtain ⟨ht, -, -, -, -, -, -, -, -, -, -, a50, a51, -⟩ := idx_facts t
  show V c main_v63 (((cfg3.win 5).blk t).view.emb (ix2 (0 : Fin 1) q)) = _
  refine congrArg (V c main_v63) (funext fun a => Fin.ext ?_)
  match a with
  | ⟨0, _⟩ => show win3_5.index t (0 : Fin 2) * 1 + 1 * 0 = 0; omega
  | ⟨1, _⟩ => show win3_5.index t (1 : Fin 2) * 2 + 1 * q.val = q.val; omega

theorem blk_LC (c : Dev nD) (t : Fin cfg3.N) (p : Fin 5000) (q : Fin 2) :
    iblk3 V c 6 t (ix2 p q) = V c main_v46_1 (ix2 (row t p) q) := by
  obtain ⟨ht, -, -, -, -, -, -, -, -, -, -, -, -, a60, a61, -⟩ := idx_facts t
  show V c main_v46_1 (((cfg3.win 6).blk t).view.emb (ix2 p q)) = _
  refine congrArg (V c main_v46_1) (funext fun a => Fin.ext ?_)
  match a with
  | ⟨0, _⟩ => show win3_6.index t (0 : Fin 2) * 5000 + 1 * p.val = t.val * 5000 + p.val; omega
  | ⟨1, _⟩ => show win3_6.index t (1 : Fin 2) * 2 + 1 * q.val = q.val; omega

/-- Where an element of point `t`'s output block sits in the result. -/
theorem blk_out (t : Fin cfg3.N) (p : Fin 5000) (q : Fin 2) :
    ((cfg3.win 7).blk t).view.emb (ix2 p q) = (ix2 (row t p) q : S100000x2.Idx) := by
  obtain ⟨ht, -, -, -, -, -, -, -, -, -, -, -, -, -, -, a70, a71⟩ := idx_facts t
  funext a; apply Fin.ext
  match a with
  | ⟨0, _⟩ => show win3_7.index t (0 : Fin 2) * 5000 + 1 * p.val = t.val * 5000 + p.val; omega
  | ⟨1, _⟩ => show win3_7.index t (1 : Fin 2) * 2 + 1 * q.val = q.val; omega

/-- What point `t` writes back is block `t` of the last stage of the region's input arrays. -/
theorem flushed_eq (c : Dev nD) (t : Fin cfg3.N) :
    (dat3 (F := Ideal) V c).flushed 7 t = ((cfg3.win 7).blk t).view.read (Elt Ideal)
      (Cert.Spec.final (V c main_v60) (V c main_v62) (V c main_v46_0) (V c main_v61) (V c main_arg9) (V c main_v63) (V c main_v46_1)) := by
  show (cfg3.win 7).cut (grid3.coords t) ((dat3 V c).after 7 t) = _
  rw [after3_7]
  unfold out3_7
  rw [View.canon_unit_zero hz]
  simp only [View.ld_unit_zero (S := S5000x128) hz, View.ld_unit_zero (S := S1x128) hz, View.ld_unit_zero (S := S5000x1) hz,
    View.ld_unit_zero (S := S128x2) hz, View.ld_unit_zero (S := S1x2) hz, View.ld_unit_zero (S := S5000x2) hz]
  funext j
  obtain ⟨p, q, rfl⟩ : ∃ (p : Fin 5000) (q : Fin 2), j = ix2 p q := ⟨j 0, j 1, eq_ix2 j⟩
  show k3_pay1 (F := Ideal) (iblk3 V c 0 t) (iblk3 V c 1 t) (iblk3 V c 3 t) (iblk3 V c 2 t) (iblk3 V c 4 t) (iblk3 V c 5 t) (iblk3 V c 6 t) (ix2 p q)
    = Cert.Spec.final (V c main_v60) (V c main_v62) (V c main_v46_0) (V c main_v61) (V c main_arg9) (V c main_v63) (V c main_v46_1)
        (((cfg3.win 7).blk t).view.emb (ix2 p q))
  refine (pay_apply (iblk3 V c 0 t) (iblk3 V c 1 t) (iblk3 V c 3 t) (iblk3 V c 2 t) (iblk3 V c 4 t) (iblk3 V c 5 t) (iblk3 V c 6 t) p q).trans ?_
  rw [blk_out t p q, blk_LC V c t p q, blk_alpha V c t p, blk_bf V c t q]
  simp only [blk_A2 V c t p, blk_b2 V c t, blk_H1 V c t p, blk_Wf V c t]
  rfl

/-- An index of the result is in point `t`'s block iff each coordinate is in the block's range on its axis. -/
theorem mem_blk (t : Fin cfg3.N) (i : S100000x2.Idx) :
    i ∈ ((cfg3.win 7).blk t).view.set ↔ ∀ a : Fin 2, win3_7.index t a * S5000x2.size a ≤ (i a).val ∧ (i a).val < win3_7.index t a * S5000x2.size a + S5000x2.size a := by
  show i ∈ ((View.whole main_v64).slice (win3_7.rect t)).set ↔ _
  rw [View.set_slice_whole, Rect.mem_set_unit]
  exact Iff.rfl

/-- Every row of the result is in the block of the point its row divided by 5000 names. -/
theorem cover (i : S100000x2.Idx) : ∃ t : Fin cfg3.N, (cfg3.win 7).flush t = true ∧ i ∈ ((cfg3.win 7).blk t).view.set := by
  have hi0 : (i 0).val < 100000 := (i 0).isLt
  have hi1 : (i 1).val < 2 := (i 1).isLt
  obtain ⟨t, ht⟩ := idx_onto ⟨(i 0).val / 5000, by omega⟩
  have q0 : win3_7.index t (0 : Fin 2) = (i 0).val / 5000 := congrFun ht 0
  have q1 : win3_7.index t (1 : Fin 2) = 0 := congrFun ht 1
  refine ⟨t, flush3_7 t, ?_⟩
  rw [mem_blk]
  intro a
  match a with
  | ⟨0, _⟩ => show win3_7.index t (0 : Fin 2) * 5000 ≤ (i 0).val ∧ (i 0).val < win3_7.index t (0 : Fin 2) * 5000 + 5000; omega
  | ⟨1, _⟩ => show win3_7.index t (1 : Fin 2) * 2 ≤ (i 1).val ∧ (i 1).val < win3_7.index t (1 : Fin 2) * 2 + 2; omega

end Region3

theorem region3_out (c : Dev nD) :
    (dat3 (F := Ideal) V c).arrAt 7 cfg3.N
      = Cert.Spec.final (V c main_v60) (V c main_v62) (V c main_v46_0) (V c main_v61) (V c main_arg9) (V c main_v63) (V c main_v46_1) :=
  (dat3 (F := Ideal) V c).arrAt_eq_of_cover 7
    (Cert.Spec.final (V c main_v60) (V c main_v62) (V c main_v46_0) (V c main_v61) (V c main_arg9) (V c main_v63) (V c main_v46_1))
    (fun t _ => Region3.flushed_eq V c t) Region3.cover

end Cert.KernelIdeal.RegionVal

end
-- ==== Proof.RefValue.lean ====
import proofs.«101168_j18287970746774_1_alg».proof.Proof.RefRead
import proofs.«101168_j18287970746774_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefVal

open Cert.ReferenceIdeal Cert.ReferenceIdeal.ReadP Idealize.ShloMosaic Idealize.ShloMosaic.ValueIdx

/-! ## The integer and gather/scatter stages

Both sides apply the same host operations to the same operands, so each of these holds by unfolding the
definitions, for any float instance. -/

section Host
variable {F : FTy → Type} [FloatOps F]

/-- The messages' source nodes, as the reference builds them for the first layer. -/
theorem v6_eq (x1 : (⟨S2x1600000, .i32⟩ : BufTy).Contents (Elt F)) : val_main_v6 (F := F) x1 = Cert.Spec.srcIdx x1 := rfl

/-- The messages' target nodes, first layer. -/
theorem v7_eq (x1 : (⟨S2x1600000, .i32⟩ : BufTy).Contents (Elt F)) : val_main_v7 (F := F) x1 = Cert.Spec.dstIdx x1 := rfl

/-- The source nodes as the second layer builds them again. -/
theorem v55_eq (x1 : (⟨S2x1600000, .i32⟩ : BufTy).Contents (Elt F)) : val_main_v55 (F := F) x1 = Cert.Spec.srcIdx x1 := rfl

/-- The target nodes as the second layer builds them again. -/
theorem v56_eq (x1 : (⟨S2x1600000, .i32⟩ : BufTy).Contents (Elt F)) : val_main_v56 (F := F) x1 = Cert.Spec.dstIdx x1 := rfl

/-- The symmetric normalisation, first layer. -/
theorem v30_eq (x1 : (⟨S2x1600000, .i32⟩ : BufTy).Contents (Elt F)) : val_main_v30 (F := F) x1 = Cert.Spec.norm x1 := rfl

/-- The symmetric normalisation, second layer. -/
theorem v79_eq (x1 : (⟨S2x1600000, .i32⟩ : BufTy).Contents (Elt F)) : val_main_v79 (F := F) x1 = Cert.Spec.norm x1 := rfl

/-- The first aggregation: gather, scale, scatter-add of `x · W1`. -/
theorem v43_eq (x0 : (⟨S100000x256, .f32⟩ : BufTy).Contents (Elt F)) (x1 : (⟨S2x1600000, .i32⟩ : BufTy).Contents (Elt F)) (x3 : (⟨S256x128, .f32⟩ : BufTy).Contents (Elt F)) :
    val_main_v43 (F := F) x0 x1 x3
      = Cert.Spec.agg (val_main_v4 (F := F) x0 x3) (val_main_v6 (F := F) x1) (val_main_v7 (F := F) x1) (val_main_v30 (F := F) x1) := rfl

/-- The second aggregation: gather, scale, scatter-add of `h1 · W2`. -/
theorem v92_eq (x0 : (⟨S100000x256, .f32⟩ : BufTy).Contents (Elt F)) (x1 : (⟨S2x1600000, .i32⟩ : BufTy).Contents (Elt F)) (x3 : (⟨S256x128, .f32⟩ : BufTy).Contents (Elt F)) (x4 : (⟨S128, .f32⟩ : BufTy).Contents (Elt F)) (x5 : (⟨S128x128, .f32⟩ : BufTy).Contents (Elt F)) :
    val_main_v92 (F := F) x0 x1 x3 x4 x5
      = Cert.Spec.agg (val_main_v53 (F := F) x0 x1 x3 x4 x5) (val_main_v55 (F := F) x1) (val_main_v56 (F := F) x1) (val_main_v79 (F := F) x1) := rfl

end Host

/-! ## The dense stages, index by index over the extended reals -/

/-! ### The reference's index functions, as indices built from coordinates -/

theorem lidx_v4_eq (i : S100000x128.Idx) (k : Fin 256) : lidx_main_v4 i k = ix2 (i 0) k :=
  funext fun a => by match a with | ⟨0, _⟩ => rfl | ⟨1, _⟩ => rfl
theorem ridx_v4_eq (i : S100000x128.Idx) (k : Fin 256) : ridx_main_v4 i k = ix2 k (i 1) :=
  funext fun a => by match a with | ⟨0, _⟩ => rfl | ⟨1, _⟩ => rfl
theorem lidx_v48_eq (i : S100000x2.Idx) (k : Fin 128) : lidx_main_v48 i k = ix2 (i 0) k :=
  funext fun a => by match a with | ⟨0, _⟩ => rfl | ⟨1, _⟩ => rfl
theorem ridx_v48_eq (i : S100000x2.Idx) (k : Fin 128) : ridx_main_v48 i k = ix2 k (i 1) :=
  funext fun a => by match a with | ⟨0, _⟩ => rfl | ⟨1, _⟩ => rfl
theorem lidx_v53_eq (i : S100000x128.Idx) (k : Fin 128) : lidx_main_v53 i k = ix2 (i 0) k :=
  funext fun a => by match a with | ⟨0, _⟩ => rfl | ⟨1, _⟩ => rfl
theorem ridx_v53_eq (i : S100000x128.Idx) (k : Fin 128) : ridx_main_v53 i k = ix2 k (i 1) :=
  funext fun a => by match a with | ⟨0, _⟩ => rfl | ⟨1, _⟩ => rfl
theorem lidx_v104_eq (i : S100000x2.Idx) (k : Fin 128) : lidx_main_v104 i k = ix2 (i 0) k :=
  funext fun a => by match a with | ⟨0, _⟩ => rfl | ⟨1, _⟩ => rfl
theorem ridx_v104_eq (i : S100000x2.Idx) (k : Fin 128) : ridx_main_v104 i k = ix2 k (i 1) :=
  funext fun a => by match a with | ⟨0, _⟩ => rfl | ⟨1, _⟩ => rfl

/-- A bias row of length 128, broadcast over the rows, reads the vector at the column. -/
theorem idx_v44_v45 (i : S100000x128.Idx) : idx_main_v44 (idx_main_v45 i) = ix1 (i 1) :=
  funext fun a => by match a with | ⟨0, _⟩ => rfl
theorem idx_v93_v94 (i : S100000x128.Idx) : idx_main_v93 (idx_main_v94 i) = ix1 (i 1) :=
  funext fun a => by match a with | ⟨0, _⟩ => rfl
/-- A bias row of length 2, broadcast over the rows, reads the vector at the column. -/
theorem idx_v49_v50 (i : S100000x2.Idx) : idx_main_v49 (idx_main_v50 i) = ix1 (i 1) :=
  funext fun a => by match a with | ⟨0, _⟩ => rfl
theorem idx_v105_v106 (i : S100000x2.Idx) : idx_main_v105 (idx_main_v106 i) = ix1 (i 1) :=
  funext fun a => by match a with | ⟨0, _⟩ => rfl
/-- The per-node scalar, as a column broadcast over the columns, reads the vector at the row. -/
theorem idx_v52_v97 (i : S100000x128.Idx) : idx_main_v52 (idx_main_v97 i) = ix1 (i 0) :=
  funext fun a => by match a with | ⟨0, _⟩ => rfl

/-! ### The stages -/

/-- `x · W1`: the sum over the contracted coordinate. -/
theorem v4_eq (x0 : (⟨S100000x256, .f32⟩ : BufTy).Contents (Elt Ideal)) (x3 : (⟨S256x128, .f32⟩ : BufTy).Contents (Elt Ideal)) : val_main_v4 (F := Ideal) x0 x3 = Cert.Spec.mm256 x0 x3 := by
  funext i
  rw [val_main_v4_apply]
  simp only [lidx_v4_eq, ridx_v4_eq]
  rfl

/-- The first layer's activations: the aggregate plus the bias row, then the maximum with zero. -/
theorem v47_eq (x0 : (⟨S100000x256, .f32⟩ : BufTy).Contents (Elt Ideal)) (x1 : (⟨S2x1600000, .i32⟩ : BufTy).Contents (Elt Ideal)) (x3 : (⟨S256x128, .f32⟩ : BufTy).Contents (Elt Ideal)) (x4 : (⟨S128, .f32⟩ : BufTy).Contents (Elt Ideal)) :
    val_main_v47 (F := Ideal) x0 x1 x3 x4
      = Cert.Spec.reluBias (val_main_v43 (F := Ideal) x0 x1 x3) (Cert.Spec.row128 x4) := by
  funext i
  rw [val_main_v47_apply, val_main_v46_apply, val_main_v45_apply, val_main_v44_apply, val_main_call1_v0_apply,
    val_main_call1_cst_apply, idx_v44_v45]
  generalize val_main_v43 (F := Ideal) x0 x1 x3 = A
  rfl

/-- The first head's logits: `h1 · Wc` plus the bias row. -/
theorem v51_eq (x0 : (⟨S100000x256, .f32⟩ : BufTy).Contents (Elt Ideal)) (x1 : (⟨S2x1600000, .i32⟩ : BufTy).Contents (Elt Ideal)) (x3 : (⟨S256x128, .f32⟩ : BufTy).Contents (Elt Ideal)) (x4 : (⟨S128, .f32⟩ : BufTy).Contents (Elt Ideal)) (x7 : (⟨S128x2, .f32⟩ : BufTy).Contents (Elt Ideal)) (x8 : (⟨S2, .f32⟩ : BufTy).Contents (Elt Ideal)) :
    val_main_v51 (F := Ideal) x0 x1 x3 x4 x7 x8
      = Cert.Spec.classify (val_main_v47 (F := Ideal) x0 x1 x3 x4) x7 (Cert.Spec.row2 x8) := by
  funext i
  rw [val_main_v51_apply, val_main_v48_apply, val_main_v50_apply, val_main_v49_apply, idx_v49_v50]
  simp only [lidx_v48_eq, ridx_v48_eq]
  generalize val_main_v47 (F := Ideal) x0 x1 x3 x4 = H
  rfl

/-- `h1 · W2`: the sum over the contracted coordinate. -/
theorem v53_eq (x0 : (⟨S100000x256, .f32⟩ : BufTy).Contents (Elt Ideal)) (x1 : (⟨S2x1600000, .i32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) :
    val_main_v53 (F := Ideal) x0 x1 x3 x4 x5 = Cert.Spec.mm128 (val_main_v47 (F := Ideal) x0 x1 x3 x4) x5 := by
  funext i
  rw [val_main_v53_apply]
  simp only [lidx_v53_eq, ridx_v53_eq]
  generalize val_main_v47 (F := Ideal) x0 x1 x3 x4 = H
  rfl

/-- The blend of the two layers' activations at one entry, as the reference's pointwise operations compute it. -/
theorem v103_apply' (x0 : (⟨S100000x256, .f32⟩ : BufTy).Contents (Elt Ideal)) (x1 : (⟨S2x1600000, .i32⟩ : BufTy).Contents (Elt Ideal)) (x2 : (⟨S100000, .f32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (j : S100000x128.Idx) :
    val_main_v103 (F := Ideal) x0 x1 x2 x3 x4 x5 x6 j
      = x2 (ix1 (j 0)) * max (val_main_v92 (F := Ideal) x0 x1 x3 x4 x5 j + x6 (ix1 (j 1))) Cert.Spec.zero
        + (Cert.Spec.one - x2 (ix1 (j 0))) * val_main_v47 (F := Ideal) x0 x1 x3 x4 j := by
  rw [val_main_v103_apply, val_main_v98_apply, val_main_v102_apply, val_main_v97_apply, val_main_v52_apply, val_main_v96_apply,
    val_main_v95_apply, val_main_v94_apply, val_main_v93_apply, val_main_call3_v0_apply, val_main_call3_cst_apply,
    val_main_v101_apply, val_main_v100_apply, val_main_v99_apply, val_main_cst_20_apply, val_main_v52_apply,
    idx_v52_v97, idx_v93_v94]
  generalize val_main_v92 (F := Ideal) x0 x1 x3 x4 x5 = A2
  generalize val_main_v47 (F := Ideal) x0 x1 x3 x4 = H1
  rfl

/-- The result: half the first head's logits plus half the second head's, the second head reading the blend. -/
theorem v112_eq (x0 : (⟨S100000x256, .f32⟩ : BufTy).Contents (Elt Ideal)) (x1 : (⟨S2x1600000, .i32⟩ : BufTy).Contents (Elt Ideal)) (x2 : (⟨S100000, .f32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x2, .f32⟩ : BufTy).Contents (Elt Ideal)) (x8 : (⟨S2, .f32⟩ : BufTy).Contents (Elt Ideal)) (x9 : (⟨S128x2, .f32⟩ : BufTy).Contents (Elt Ideal)) (x10 : (⟨S2, .f32⟩ : BufTy).Contents (Elt Ideal)) :
    val_main_v112 (F := Ideal) x0 x1 x2 x3 x4 x5 x6 x7 x8 x9 x10
      = Cert.Spec.final (val_main_v92 (F := Ideal) x0 x1 x3 x4 x5) (Cert.Spec.row128 x6) (val_main_v47 (F := Ideal) x0 x1 x3 x4)
          (Cert.Spec.col x2) x9 (Cert.Spec.row2 x10) (val_main_v51 (F := Ideal) x0 x1 x3 x4 x7 x8) := by
  funext i
  rw [val_main_v112_apply, val_main_v109_apply, val_main_v111_apply, val_main_v108_apply, val_main_cst_21_apply,
    val_main_v110_apply, val_main_cst_22_apply, val_main_v107_apply, val_main_v104_apply, val_main_v106_apply,
    val_main_v105_apply, idx_v105_v106]
  simp only [v103_apply']
  simp only [lidx_v104_eq, ridx_v104_eq]
  generalize val_main_v92 (F := Ideal) x0 x1 x3 x4 x5 = A2
  generalize val_main_v47 (F := Ideal) x0 x1 x3 x4 = H1
  generalize val_main_v51 (F := Ideal) x0 x1 x3 x4 x7 x8 = LC
  rfl

/-! ## The whole reference -/

theorem ref_eq (x0 : (⟨S100000x256, .f32⟩ : BufTy).Contents (Elt Ideal)) (x1 : (⟨S2x1600000, .i32⟩ : BufTy).Contents (Elt Ideal)) (x2 : (⟨S100000, .f32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x2, .f32⟩ : BufTy).Contents (Elt Ideal)) (x8 : (⟨S2, .f32⟩ : BufTy).Contents (Elt Ideal)) (x9 : (⟨S128x2, .f32⟩ : BufTy).Contents (Elt Ideal)) (x10 : (⟨S2, .f32⟩ : BufTy).Contents (Elt Ideal)) :
    val_main_v112 (F := Ideal) x0 x1 x2 x3 x4 x5 x6 x7 x8 x9 x10 = Cert.Spec.out x0 x1 x2 x3 x4 x5 x6 x7 x8 x9 x10 := by
  rw [v112_eq, v51_eq, v92_eq, v53_eq, v47_eq, v43_eq, v4_eq, v6_eq, v7_eq, v30_eq, v55_eq, v56_eq, v79_eq]
  rfl

end Cert.ReferenceIdeal.RefVal

end
-- ==== Proof.lean ====
/-
  The certificate: the Pallas program of four pipelined kernels (x · W1; bias, relu and the coarse classifier; h1 · W2;
  bias, relu, the per-node blend, the fine classifier and the 1/2–1/2 combination) among host gathers and scatter-adds,
  against the plain two-layer graph convolution written in jnp.

  Both programs apply the same operations to the same values; they differ in the tiling of the node axis into twenty
  blocks of 5000 rows, in a matrix product being a `tpu.matmul` into a zero accumulator or a host `dot_general` (the same
  sum over the contracted coordinate on the extended reals), and in the reference computing the degree normalisation once
  per layer where the kernel's program computes it once. `Cert.Spec.out` states the common function; the kernel program's
  result array is that function of its arguments (the regions' output arrays by what each grid point writes back, the host
  stretches by their operations' terms), and so is the reference's last stage. No law of the extended reals beyond the
  definitions is used, so the precondition (finite inputs) is not opened.

  The frames of the two kernel programs are the generated ones; the reference's frame is its run with the result dropped.
  The idealization rewrote nothing, so `preserves` is `True`.
-/
import proofs.«101168_j18287970746774_1_alg».proof.Defs
import proofs.«101168_j18287970746774_1_alg».proof.Proof.Gen.Kernel
import proofs.«101168_j18287970746774_1_alg».proof.Proof.Gen.Kernel.Skeleton
import proofs.«101168_j18287970746774_1_alg».proof.Proof.Gen.Kernel.Launch
import proofs.«101168_j18287970746774_1_alg».proof.Proof.Gen.Kernel.Points
import proofs.«101168_j18287970746774_1_alg».proof.Proof.Gen.Kernel.Frame
import proofs.«101168_j18287970746774_1_alg».proof.Proof.Gen.KernelIdeal
import proofs.«101168_j18287970746774_1_alg».proof.Proof.Gen.KernelIdeal.Skeleton
import proofs.«101168_j18287970746774_1_alg».proof.Proof.Gen.KernelIdeal.Launch
import proofs.«101168_j18287970746774_1_alg».proof.Proof.Gen.KernelIdeal.Points
import proofs.«101168_j18287970746774_1_alg».proof.Proof.Gen.KernelIdeal.Frame
import proofs.«101168_j18287970746774_1_alg».proof.Proof.Gen.ReferenceIdeal
import proofs.«101168_j18287970746774_1_alg».proof.Proof.Gen.Pre_finite_inputs
import proofs.«101168_j18287970746774_1_alg».proof.Proof.KernelIdealRun
import proofs.«101168_j18287970746774_1_alg».proof.Proof.KernelValue
import proofs.«101168_j18287970746774_1_alg».proof.Proof.Region0
import proofs.«101168_j18287970746774_1_alg».proof.Proof.Region1
import proofs.«101168_j18287970746774_1_alg».proof.Proof.Region2
import proofs.«101168_j18287970746774_1_alg».proof.Proof.Region3
import proofs.«101168_j18287970746774_1_alg».proof.Proof.RefRun
import proofs.«101168_j18287970746774_1_alg».proof.Proof.RefRead
import proofs.«101168_j18287970746774_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The kernel program's result array, after its run, is `Cert.Spec.out` of its arguments: the boundary-by-boundary
    reading, given each region's output arrays. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W9 (F := Ideal) m ρ c (Proc.devRef .tc Cert.KernelIdeal.main_v64)
      = Cert.Spec.out (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10)) :=
  Cert.KernelIdeal.KVal.result_eq m ρ Cert.KernelIdeal.RegionVal.region0_out Cert.KernelIdeal.RegionVal.region1_h1
    Cert.KernelIdeal.RegionVal.region1_logits Cert.KernelIdeal.RegionVal.region2_out Cert.KernelIdeal.RegionVal.region3_out c

/-- Both idealized programs, from memories agreeing on the arguments, end with the result array at `Cert.Spec.out` of the
    kernel program's arguments. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · refine (θ_run Cert.KernelIdeal.defs _ _).mono (fun r h c => ⟨(h c).1.trans (kernel_result m ρ c), (h c).2⟩)
      (Cert.KernelIdeal.GenRun.run_named (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v112_eq, Cert.ReferenceIdeal.RefVal.ref_eq]
    obtain ⟨e0, e1, e2, e3, e4, e5, e6, e7, e8, e9, e10⟩ := hagree c
    rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
